-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 63
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S100000x1, .f32⟩
  | .hbm, ⟨44, _⟩ => ⟨S1x128, .f32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call1_cst : Ref sig .tc := ⟨.hbm, 96, rfl⟩
abbrev main_call1_v0 : Ref sig .tc := ⟨.hbm, 97, rfl⟩
abbrev main_v57 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over the extended reals, and the two laws that join them.

  Nodes are rows `r < 100000`, features are columns `c < 128`. From the node features `x`, an aggregate `agg` (the
  neighbours' normalised features summed along the edges) and the in-degrees `deg`, both programs form the residual
  `h r c = x r c + ((∑ k, (agg r k · deg r ^ (-1/2)) · W k c) + b c)`, normalise each column of `h` by its mean and its
  (biased) variance over the rows, scale by `gam`, shift by `bet` and clamp below at zero.

  They differ in two ways. One sums a column over the rows in ten consecutive blocks of 10000 rows, adding each block's
  sum to a running total that starts at zero; the other sums the 100000 rows at once. And one takes the variance as the
  mean of the squares less the square of the mean, the other as the mean of the squared deviations from the mean: equal
  for real entries, not for infinite ones, which is why every entry of `h` is required to be a real number.
-/
import Mathlib.Data.EReal.Operations
import Mathlib.Algebra.BigOperators.Fin
import Idealize.ShloMosaic.PureOps.Ideal

noncomputable section

namespace Cert.Gcn

open Idealize.ShloMosaic

/-- A rows × features array as a function of its two coordinates. -/
abbrev Mat := Fin 100000 → Fin 128 → EReal
/-- One value per feature. -/
abbrev Row := Fin 128 → EReal

/-- The number of rows as both programs spell it: the pattern of `100000.0`. -/
def nF : EReal := Ideal.ofBits .f32 0x47C35000#32
/-- The variance's regulariser as both programs spell it (the same pattern on both sides: never evaluated). -/
def epsF : EReal := Ideal.ofBits .f32 0x3727C5AC#32
/-- The pattern of `+0.0`. -/
def zeroF : EReal := Ideal.ofBits .f32 0x00000000#32

/-- An extended real that is a real number. -/
def IsReal (v : EReal) : Prop := ∃ a : ℝ, v = (a : EReal)

theorem zeroF_eq : zeroF = 0 := by
  simp [zeroF, Ideal.ofBits, Ideal.ieee]

theorem nF_eq : nF = ((100000 : ℝ) : EReal) := by
  simp [nF, Ideal.ofBits, Ideal.ieee, -EReal.coe_mul]; norm_num

theorem isReal_coe (a : ℝ) : IsReal (a : EReal) := ⟨a, rfl⟩
theorem isReal_zero : IsReal 0 := ⟨0, rfl⟩
theorem isReal_zeroF : IsReal zeroF := by rw [zeroF_eq]; exact isReal_zero
theorem IsReal.add {u v : EReal} (hu : IsReal u) (hv : IsReal v) : IsReal (u + v) := by
  obtain ⟨a, rfl⟩ := hu; obtain ⟨b, rfl⟩ := hv; exact ⟨a + b, (EReal.coe_add a b).symm⟩
theorem IsReal.mul {u v : EReal} (hu : IsReal u) (hv : IsReal v) : IsReal (u * v) := by
  obtain ⟨a, rfl⟩ := hu; obtain ⟨b, rfl⟩ := hv; exact ⟨a * b, (EReal.coe_mul a b).symm⟩
theorem IsReal.sub {u v : EReal} (hu : IsReal u) (hv : IsReal v) : IsReal (u - v) := by
  obtain ⟨a, rfl⟩ := hu; obtain ⟨b, rfl⟩ := hv; exact ⟨a - b, (EReal.coe_sub a b).symm⟩
/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih (fun i hi => hf i (Finset.mem_insert_of_mem hi)))
/-- A finite sum of real numbers, taken in the extended reals, is the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]
/-- The inverse square root of a real number that is at least one is a real number. -/
theorem isReal_rsqrt_of_one_le {a : ℝ} (ha : 1 ≤ a) : IsReal (Ideal.rsqrt (a : EReal)) := by
  have h0 : ¬ a < 0 := by linarith
  have h1 : ¬ a = 0 := by intro h; linarith
  rw [Ideal.rsqrt_coe, if_neg h0, if_neg h1]
  exact isReal_coe _

/-- The residual features: `x + ((agg · deg^(-1/2)) W + b)`. -/
def resid (x agg : Mat) (deg : Fin 100000 → EReal) (W : Fin 128 → Fin 128 → EReal) (b : Row) : Mat :=
  fun r c => x r c + ((∑ k : Fin 128, (agg r k * Ideal.rsqrt (deg r)) * W k c) + b c)

/-- The residual of real data, with in-degrees that are real and at least one, is real. -/
theorem resid_isReal (x agg : Mat) (deg : Fin 100000 → EReal) (W : Fin 128 → Fin 128 → EReal) (b : Row)
    (hx : ∀ r c, IsReal (x r c)) (hagg : ∀ r c, IsReal (agg r c)) (hdeg : ∀ r, ∃ a : ℝ, 1 ≤ a ∧ deg r = (a : EReal))
    (hW : ∀ k c, IsReal (W k c)) (hb : ∀ c, IsReal (b c)) (r : Fin 100000) (c : Fin 128) :
    IsReal (resid x agg deg W b r c) := by
  obtain ⟨a, ha, hd⟩ := hdeg r
  have hr : IsReal (Ideal.rsqrt (deg r)) := by rw [hd]; exact isReal_rsqrt_of_one_le ha
  unfold resid
  exact (hx r c).add ((isReal_sum _ _ (fun k _ => ((hagg r k).mul hr).mul (hW k c))).add (hb c))

/-- A column's mean from its sum. -/
def meanOf (s1 : Row) : Row := fun c => Ideal.div (s1 c) nF
/-- A column's variance from its sum and its sum of squares: the mean of the squares less the square of the mean. -/
def varOfSums (s1 s2 : Row) : Row := fun c => Ideal.div (s2 c) nF - meanOf s1 c * meanOf s1 c
/-- A column's mean as the one-pass program computes it: the sum over all rows, from the zero pattern, by the row count. -/
def meanAll (h : Mat) : Row := fun c => Ideal.div (zeroF + ∑ r : Fin 100000, h r c) nF
/-- A column's variance as the one-pass program computes it: the squared deviations from the mean, summed from the zero
    pattern over all rows, by the row count less the `ddof` it was called with (the integer `0` converted). -/
def varAll (h : Mat) : Row := fun c =>
  Ideal.div (zeroF + ∑ r : Fin 100000, (h r c - meanAll h c) * (h r c - meanAll h c))
    (nF - (((0#32 : BitVec 32).toInt : ℝ) : EReal))
/-- Normalise, scale, shift and clamp below at zero. -/
def normRelu (h : Mat) (mean var gam bet : Row) : Mat :=
  fun r c => max (((h r c - mean c) * Ideal.rsqrt (var c + epsF)) * gam c + bet c) zeroF

/-- Consecutive blocks of equal length exhaust an initial segment: the sum of the block sums is the sum over the segment. -/
theorem sum_range_blocks (g : ℕ → EReal) (k m : ℕ) :
    ∑ s ∈ Finset.range m, ∑ q ∈ Finset.range k, g (s * k + q) = ∑ n ∈ Finset.range (m * k), g n := by
  induction m with
  | zero => rw [Nat.zero_mul, Finset.sum_range_zero, Finset.sum_range_zero]
  | succ m ih => rw [Finset.sum_range_succ, ih, Nat.succ_mul, Finset.sum_range_add]

/-- The block-wise running total: ten blocks of 10000 consecutive rows, each block's sum added to the total so far,
    the first to the zero pattern, is the sum over all 100000 rows. -/
theorem total_of_blocks (f : Fin 100000 → EReal) (acc : ℕ → EReal)
    (h0 : acc 0 = zeroF + ∑ q : Fin 10000, f ⟨q.val, by omega⟩)
    (hs : ∀ t : ℕ, (ht : t + 1 < 10) → acc (t + 1) = acc t + ∑ q : Fin 10000, f ⟨(t + 1) * 10000 + q.val, by omega⟩) :
    acc 9 = ∑ r : Fin 100000, f r := by
  classical
  -- extend the summand by zero to all naturals, so that blocks are sums over ranges
  let g : ℕ → EReal := fun n => if h : n < 100000 then f ⟨n, h⟩ else 0
  have hgf : ∀ (n : ℕ) (h : n < 100000), f ⟨n, h⟩ = g n := fun n h => by
    show f ⟨n, h⟩ = dite (n < 100000) (fun h => f ⟨n, h⟩) (fun _ => 0)
    rw [dif_pos h]
  have hacc : ∀ t : ℕ, t < 10 →
      acc t = ∑ s ∈ Finset.range (t + 1), ∑ q ∈ Finset.range 10000, g (s * 10000 + q) := by
    intro t
    induction t with
    | zero =>
      intro _
      rw [h0, zeroF_eq, zero_add, Finset.sum_range_one, Finset.sum_range]
      refine Finset.sum_congr rfl (fun q _ => ?_)
      rw [hgf, Nat.zero_mul, Nat.zero_add]
    | succ t ih =>
      intro ht
      rw [hs t ht, ih (by omega), Finset.sum_range_succ _ (t + 1)]
      refine congrArg (HAdd.hAdd _) ?_
      rw [Finset.sum_range]
      exact Finset.sum_congr rfl (fun q _ => hgf _ _)
  rw [hacc 9 (by omega), sum_range_blocks g 10000 10, Finset.sum_range]
  exact Finset.sum_congr rfl (fun r _ => (hgf r.val r.isLt).symm)

/-- For a real array the two means agree. -/
theorem meanOf_eq_meanAll (h : Mat) (s1 : Row) (hs1 : ∀ c, s1 c = ∑ r : Fin 100000, h r c) :
    meanOf s1 = meanAll h := by
  funext c
  unfold meanOf meanAll
  rw [hs1 c, zeroF_eq, zero_add]

/-- Over the reals, the mean of the squares less the square of the mean is the mean of the squared deviations from the
    mean (each mean written as the sum times the inverse of the number of terms). -/
theorem real_var_identity {ι : Type} [Fintype ι] (a : ι → ℝ) (n : ℝ) (hcard : (Fintype.card ι : ℝ) = n) (hn : n ≠ 0) :
    (∑ i, a i * a i) * (1 / n) - ((∑ i, a i) * (1 / n)) * ((∑ i, a i) * (1 / n))
      = (∑ i, (a i - (∑ j, a j) * (1 / n)) * (a i - (∑ j, a j) * (1 / n))) * (1 / n) := by
  set m : ℝ := (∑ j, a j) * (1 / n) with hm
  have hexp : ∀ i, (a i - m) * (a i - m) = a i * a i - 2 * m * a i + m * m := fun i => by ring
  have hsum : ∑ i, (a i - m) * (a i - m) = (∑ i, a i * a i) - 2 * m * (∑ i, a i) + n * (m * m) := by
    rw [Finset.sum_congr rfl (fun i _ => hexp i), Finset.sum_add_distrib, Finset.sum_sub_distrib, ← Finset.mul_sum,
      Finset.sum_const, Finset.card_univ, nsmul_eq_mul, hcard]
  rw [hsum, hm]
  field_simp
  ring

/-- For a real array the two variances agree: `(∑ h²)/n − ((∑ h)/n)² = (∑ (h − (∑ h)/n)²)/n`. -/
theorem varOfSums_eq_varAll (h : Mat) (hreal : ∀ r c, IsReal (h r c)) (s1 s2 : Row)
    (hs1 : ∀ c, s1 c = ∑ r : Fin 100000, h r c) (hs2 : ∀ c, s2 c = ∑ r : Fin 100000, h r c * h r c) :
    varOfSums s1 s2 = varAll h := by
  funext c
  choose g hg using hreal
  have hn : (100000 : ℝ) ≠ 0 := by norm_num
  have hS1 : (∑ r : Fin 100000, h r c) = ((∑ r : Fin 100000, g r c : ℝ) : EReal) := by
    rw [← coe_sum]; exact Finset.sum_congr rfl (fun r _ => hg r c)
  have hS2 : (∑ r : Fin 100000, h r c * h r c) = ((∑ r : Fin 100000, g r c * g r c : ℝ) : EReal) := by
    rw [← coe_sum]; exact Finset.sum_congr rfl (fun r _ => by rw [hg r c, ← EReal.coe_mul])
  have hmean : meanAll h c = (((∑ r : Fin 100000, g r c) * (1 / 100000) : ℝ) : EReal) := by
    unfold meanAll
    rw [zeroF_eq, zero_add, nF_eq, Ideal.div_coe hn, hS1, ← EReal.coe_mul]
  have hdev : (∑ r : Fin 100000, (h r c - meanAll h c) * (h r c - meanAll h c))
      = ((∑ r : Fin 100000, (g r c - (∑ j : Fin 100000, g j c) * (1 / 100000))
          * (g r c - (∑ j : Fin 100000, g j c) * (1 / 100000)) : ℝ) : EReal) := by
    rw [← coe_sum]
    refine Finset.sum_congr rfl (fun r _ => ?_)
    rw [hmean, hg r c, ← EReal.coe_sub, ← EReal.coe_mul]
  have hden : nF - (((0#32 : BitVec 32).toInt : ℝ) : EReal) = ((100000 : ℝ) : EReal) := by
    have hz : (0#32 : BitVec 32).toInt = 0 := by decide
    rw [hz, nF_eq, Int.cast_zero, EReal.coe_zero, sub_zero]
  have hcard : ((Fintype.card (Fin 100000) : ℕ) : ℝ) = 100000 := by
    rw [Fintype.card_fin]; norm_num
  unfold varOfSums varAll meanOf
  rw [hden, hs1 c, hs2 c, zeroF_eq, zero_add, nF_eq, hdev, hS1, hS2]
  simp only [Ideal.div_coe hn]
  rw [← EReal.coe_mul, ← EReal.coe_mul, ← EReal.coe_mul, ← EReal.coe_sub,
    real_var_identity (fun r => g r c) 100000 hcard hn]
  exact EReal.coe_mul _ _

end Cert.Gcn

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.KPay0.lean ====
/-
  The first kernel body's arithmetic, read at an index, at the ideal values.

  One step of the first kernel takes a block of 10000 rows: the aggregate block, the in-degree column, the weight matrix,
  the bias row and the feature block. It scales each aggregate row by the inverse square root of the row's in-degree,
  multiplies by the weights, adds the bias row and the features (the residual block), and adds the block's column sums,
  and the column sums of its squares, to two running rows that start at zero. Each lemma reads one of these values at
  given coordinates as the corresponding expression over the extended reals.
-/
import proofs.«143895_j43920335568926_1_alg».proof.Proof.Gen.KernelIdeal.Skeleton
import proofs.«143895_j43920335568926_1_alg».proof.Proof.Spec
import proofs.«143895_j43920335568926_1_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.KerSide

open Cert.KernelIdeal Cert.KernelIdeal.Gen Idealize.ShloMosaic Idealize.ShloMosaic.ValueIdx

/-- A row [1, b] broadcast to [a, b] reads, at (r, c), the row's entry of column c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The left operand's row coordinate is the result's row coordinate. -/
theorem lhs_dot_0 (j : S10000x128.Idx) (k : dot_S10000x128_S128x128_S10000x128_1_0_0_1_n_n.contr.Idx) :
    (dot_S10000x128_S128x128_S10000x128_1_0_0_1_n_n.lhsIdx j k 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand's column coordinate is the contracted coordinate. -/
theorem lhs_dot_1 (j : S10000x128.Idx) (k : dot_S10000x128_S128x128_S10000x128_1_0_0_1_n_n.contr.Idx) :
    (dot_S10000x128_S128x128_S10000x128_1_0_0_1_n_n.lhsIdx j k 1).val = (k ⟨0, Nat.one_pos⟩).val :=
  dot_S10000x128_S128x128_S10000x128_1_0_0_1_n_n.lhsIdx_val_of_single (cl := 1) rfl j k

/-- The right operand's row coordinate is the contracted coordinate. -/
theorem rhs_dot_0 (j : S10000x128.Idx) (k : dot_S10000x128_S128x128_S10000x128_1_0_0_1_n_n.contr.Idx) :
    (dot_S10000x128_S128x128_S10000x128_1_0_0_1_n_n.rhsIdx j k 0).val = (k ⟨0, Nat.one_pos⟩).val :=
  dot_S10000x128_S128x128_S10000x128_1_0_0_1_n_n.rhsIdx_val_of_single (cr := 0) rfl j k

/-- The right operand's column coordinate is the result's column coordinate. -/
theorem rhs_dot_1 (j : S10000x128.Idx) (k : dot_S10000x128_S128x128_S10000x128_1_0_0_1_n_n.contr.Idx) :
    (dot_S10000x128_S128x128_S10000x128_1_0_0_1_n_n.rhsIdx j k 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The matrix product into the zero accumulator, at (p, q): the sum over the contracted coordinate of the products. -/
theorem matmul_zero_apply (A : FVec Ideal S10000x128 .f32) (B : FVec Ideal S128x128 .f32) (p : Fin 10000) (q : Fin 128) :
    matmul dot_S10000x128_S128x128_S10000x128_1_0_0_1_n_n none A B (constant (F := Ideal) S10000x128 .f32 0x00000000#32)
      (ix2 p q) = ∑ j : Fin 128, A (ix2 p j) * B (ix2 j q) := by
  show FloatOps.matmul dot_S10000x128_S128x128_S10000x128_1_0_0_1_n_n none A B _ (ix2 p q) = _
  rw [Ideal.matmul_constant_zero_apply,
    ← Equiv.sum_comp (contrEquiv1 dot_S10000x128_S128x128_S10000x128_1_0_0_1_n_n 128 rfl rfl).symm]
  refine Finset.sum_congr rfl fun c _ => ?_
  have hk := contrEquiv1_symm_val dot_S10000x128_S128x128_S10000x128_1_0_0_1_n_n 128 rfl rfl c
  have hl : dot_S10000x128_S128x128_S10000x128_1_0_0_1_n_n.lhsIdx (ix2 p q)
      ((contrEquiv1 dot_S10000x128_S128x128_S10000x128_1_0_0_1_n_n 128 rfl rfl).symm c) = ix2 p c := by
    funext ax; apply Fin.ext
    match ax with
    | ⟨0, _⟩ => exact lhs_dot_0 _ _
    | ⟨1, _⟩ => exact (lhs_dot_1 _ _).trans hk
  have hr : dot_S10000x128_S128x128_S10000x128_1_0_0_1_n_n.rhsIdx (ix2 p q)
      ((contrEquiv1 dot_S10000x128_S128x128_S10000x128_1_0_0_1_n_n 128 rfl rfl).symm c) = ix2 c q := by
    funext ax; apply Fin.ext
    match ax with
    | ⟨0, _⟩ => exact (rhs_dot_0 _ _).trans hk
    | ⟨1, _⟩ => exact rhs_dot_1 _ _
  rw [hl, hr]

/-- The residual block at (p, q): the features plus the scaled aggregate row times the weight column plus the bias. -/
theorem pay3_apply (agg : Vec Ideal S10000x128 .f32) (deg : Vec Ideal S10000x1 .f32) (W : Vec Ideal S128x128 .f32)
    (b : Vec Ideal S1x128 .f32) (x : Vec Ideal S10000x128 .f32) (p : Fin 10000) (q : Fin 128) :
    k0_pay3 (F := Ideal) agg deg W b x (ix2 p q)
      = x (ix2 p q) + ((∑ j : Fin 128, (agg (ix2 p j) * Ideal.rsqrt (deg (ix2 p (0 : Fin 1)))) * W (ix2 j q))
          + b (ix2 (0 : Fin 1) q)) := by
  unfold k0_pay3
  rw [addf_apply, addf_apply, matmul_zero_apply, broadcastTo_1b_ab_apply, shapeCast_self, shapeCast_self, shapeCast_self]
  refine congrArg (x (ix2 p q) + ·) (congrArg (· + b (ix2 (0 : Fin 1) q)) (Finset.sum_congr rfl fun j _ => ?_))
  rw [mulf_apply, Cert.LibColumns.broadcastTo_a1_ab_apply]
  rfl

/-- The first running row after a step, at column q: the row before plus the column sum of the residual block. -/
theorem pay4_apply (agg : Vec Ideal S10000x128 .f32) (deg : Vec Ideal S10000x1 .f32) (W : Vec Ideal S128x128 .f32)
    (b : Vec Ideal S1x128 .f32) (x : Vec Ideal S10000x128 .f32) (acc : Vec Ideal S1x128 .f32) (q : Fin 128) :
    k0_pay4 (F := Ideal) agg deg W b x acc (ix2 (0 : Fin 1) q)
      = acc (ix2 (0 : Fin 1) q) + ∑ p : Fin 10000, k0_pay3 (F := Ideal) agg deg W b x (ix2 p q) := by
  unfold k0_pay4
  rw [addf_apply, shapeCast_self, shapeCast_a_1a_apply]
  exact congrArg (acc (ix2 (0 : Fin 1) q) + ·) (Cert.LibColumns.colSum_apply _ _ _ _ _ q)

/-- The second running row after a step, at column q: the row before plus the column sum of the squares of the
    residual block. -/
theorem pay5_apply (agg : Vec Ideal S10000x128 .f32) (deg : Vec Ideal S10000x1 .f32) (W : Vec Ideal S128x128 .f32)
    (b : Vec Ideal S1x128 .f32) (x : Vec Ideal S10000x128 .f32) (acc : Vec Ideal S1x128 .f32) (q : Fin 128) :
    k0_pay5 (F := Ideal) agg deg W b x acc (ix2 (0 : Fin 1) q)
      = acc (ix2 (0 : Fin 1) q) + ∑ p : Fin 10000, k0_pay3 (F := Ideal) agg deg W b x (ix2 p q)
          * k0_pay3 (F := Ideal) agg deg W b x (ix2 p q) := by
  unfold k0_pay5
  rw [addf_apply, shapeCast_self, shapeCast_a_1a_apply]
  exact congrArg (acc (ix2 (0 : Fin 1) q) + ·)
    ((Cert.LibColumns.colSum_apply _ _ _ _ _ q).trans (Finset.sum_congr rfl fun p _ => mulf_apply _ _ _))

/-- The first running row starts at the zero pattern. -/
theorem pay1_apply (q : Fin 128) : k0_pay1 (F := Ideal) (ix2 (0 : Fin 1) q) = Cert.Gcn.zeroF := rfl

/-- The second running row starts at the zero pattern. -/
theorem pay2_apply (q : Fin 128) : k0_pay2 (F := Ideal) (ix2 (0 : Fin 1) q) = Cert.Gcn.zeroF := rfl

end Cert.Gcn.KerSide

end
-- ==== Proof.KRegion0.lean ====
/-
  The first region (scale, matrix product, bias, residual, column sums), read as values: whatever the region finds in
  its arrays, it leaves the residual `h r k = x r k + ((∑ j, (agg r j · deg r ^ (-1/2)) · W j k) + b k)` in its first
  result array, one block of 10000 rows per grid point, and in the two one-row results the column sums of `h` and of
  `h · h` over all 100000 rows: the running totals, reset to zero at the first point, each point adding its block's
  column sums, written back after the last point.
-/
import proofs.«143895_j43920335568926_1_alg».proof.Proof.Gen.KernelIdeal.Frame
import proofs.«143895_j43920335568926_1_alg».proof.Proof.Spec
import proofs.«143895_j43920335568926_1_alg».proof.Proof.LibColumns
import proofs.«143895_j43920335568926_1_alg».proof.Proof.KPay0
import Idealize.ShloMosaic.Lib.ValueIdx
import Idealize.ShloMosaic.Lib.Pipeline.Value

noncomputable section

namespace Cert.Gcn.KerSide

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The residual, over the arrays region 0 finds: `x`, the aggregate, the in-degree column, `W` and the bias row. -/
def H0 (c : Dev nD) : Cert.Gcn.Mat :=
  Cert.Gcn.resid (fun r k => (V c main_arg0 : S100000x128.Idx → EReal) (ix2 r k))
    (fun r k => (V c main_v28 : S100000x128.Idx → EReal) (ix2 r k))
    (fun r => (V c main_v29 : S100000x1.Idx → EReal) (ix2 r (0 : Fin 1)))
    (fun j k => (V c main_arg2 : S128x128.Idx → EReal) (ix2 j k))
    (fun k => (V c main_v30 : S1x128.Idx → EReal) (ix2 (0 : Fin 1) k))

/-- Congruence of `a + (∑ + b)` in the summand. -/
theorem add_sum_add_congr {ι : Type} [Fintype ι] (a b : EReal) (f g : ι → EReal) (h : ∀ j, f j = g j) :
    a + ((∑ j, f j) + b) = a + ((∑ j, g j) + b) := by
  rw [show f = g from funext h]

/-- Congruence of `a + ∑` in the summand. -/
theorem add_sum_congr {ι : Type} [Fintype ι] (a : EReal) (f g : ι → EReal) (h : ∀ j, f j = g j) :
    a + (∑ j, f j) = a + (∑ j, g j) := by
  rw [show f = g from funext h]

section Pieces
variable {F : FTy → Type} [FloatOps F]

/-- A block's stores and loads start at offset zero on both axes. -/
theorem hz2 : (![0, 0] : Fin 2 → Nat) = fun _ => 0 := funext fun a => by fin_cases a <;> rfl

/-- After the first grid point the block result holds the residual of the loaded blocks. -/
theorem pieceA5 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x128 .f32) (x1 : Vec F S10000x128 .f32) (x2 : Vec F S10000x1 .f32) (x3 : Vec F S128x128 .f32) (x4 : Vec F S1x128 .f32) :
    out0_A_5 c i a1 h1 a2 h2 a3 h3 a4 h4 a5 h5 a6 h6 a7 h7 a8 h8 hc x0 x1 x2 x3 x4 = k0_pay3 x1 x2 x3 x4 x0 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

/-- After any later grid point the block result holds the residual of the loaded blocks. -/
theorem pieceB5 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x128 .f32) (x1 : Vec F S10000x128 .f32) (x2 : Vec F S10000x1 .f32) (x3 : Vec F S128x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay3 x1 x2 x3 x4 x0 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

/-- The first grid point stores the zero row and then adds the block's column sums to it. -/
theorem pieceA6 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x128 .f32) (x1 : Vec F S10000x128 .f32) (x2 : Vec F S10000x1 .f32) (x3 : Vec F S128x128 .f32) (x4 : Vec F S1x128 .f32) :
    out0_A_6 c i a1 h1 a2 h2 a3 h3 a4 h4 a5 h5 a6 h6 a7 h7 a8 h8 hc x0 x1 x2 x3 x4 = k0_pay4 x1 x2 x3 x4 x0 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

/-- A later grid point adds the block's column sums to the running row it finds. -/
theorem pieceB6 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x128 .f32) (x1 : Vec F S10000x128 .f32) (x2 : Vec F S10000x1 .f32) (x3 : Vec F S128x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay4 x1 x2 x3 x4 x0 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

/-- The first grid point stores the zero row and then adds the block's column sums of squares to it. -/
theorem pieceA7 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x128 .f32) (x1 : Vec F S10000x128 .f32) (x2 : Vec F S10000x1 .f32) (x3 : Vec F S128x128 .f32) (x4 : Vec F S1x128 .f32) :
    out0_A_7 c i a1 h1 a2 h2 a3 h3 a4 h4 a5 h5 a6 h6 a7 h7 a8 h8 hc x0 x1 x2 x3 x4 = k0_pay5 x1 x2 x3 x4 x0 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

/-- A later grid point adds the block's column sums of squares to the running row it finds. -/
theorem pieceB7 (c : Dev nD) (i : grid0.Coords) (a1 : Memref sig .tc .vmem S10000x128 .f32) (h1 : a1.IsWhole) (a2 : Memref sig .tc .vmem S10000x128 .f32) (h2 : a2.IsWhole) (a3 : Memref sig .tc .vmem S10000x1 .f32) (h3 : a3.IsWhole) (a4 : Memref sig .tc .vmem S128x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x128 .f32) (x1 : Vec F S10000x128 .f32) (x2 : Vec F S10000x1 .f32) (x3 : Vec F S128x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay5 x1 x2 x3 x4 x0 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S10000x128) hz2, View.ld_unit_zero (S := S10000x1) hz2, View.ld_unit_zero (S := S128x128) hz2, View.ld_unit_zero (S := S1x128) hz2]

end Pieces

/-! ## The blocks the grid points load -/

/-- The row of the whole array that row `p` of the block of grid point `t` is: blocks are 10000 consecutive rows. -/
def rowOf (t : Fin cfg0.N) (p : Fin 10000) : Fin 100000 :=
  ⟨t.val * 10000 + p.val, by have h : t.val < 10 := lt_of_lt_of_eq t.isLt (show cfg0.N = 10 from N_0); have := p.isLt; omega⟩

/-- The block index of every window at every grid point: the row-blocked windows move with the point, the others stay. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The block of `x` at point `t` is rows `10000 t … 10000 t + 9999` of `x`. -/
theorem blk0_apply (c : Dev nD) (t : Fin cfg0.N) (p : Fin 10000) (q : Fin 128) :
    (iblk0 V c 0 t : Vec Ideal S10000x128 .f32) (ix2 p q) = (V c main_arg0 : S100000x128.Idx → EReal) (ix2 (rowOf t p) q) := by
  obtain ⟨⟨e0, e1⟩, -⟩ := idx_facts0 t
  unfold iblk0
  rw [View.read_apply]
  show V c main_arg0 _ = V c main_arg0 _
  congr 1
  funext a
  apply Fin.ext
  match a with
  | ⟨0, _⟩ => show win0_0.index t 0 * 10000 + 1 * p.val = t.val * 10000 + p.val; rw [e0]; omega
  | ⟨1, _⟩ => show win0_0.index t 1 * 128 + 1 * q.val = q.val; rw [e1]; omega

/-- The block of the aggregate at point `t` is the same rows of the aggregate. -/
theorem blk1_apply (c : Dev nD) (t : Fin cfg0.N) (p : Fin 10000) (q : Fin 128) :
    (iblk0 V c 1 t : Vec Ideal S10000x128 .f32) (ix2 p q) = (V c main_v28 : S100000x128.Idx → EReal) (ix2 (rowOf t p) q) := by
  obtain ⟨-, ⟨e0, e1⟩, -⟩ := idx_facts0 t
  unfold iblk0
  rw [View.read_apply]
  show V c main_v28 _ = V c main_v28 _
  congr 1
  funext a
  apply Fin.ext
  match a with
  | ⟨0, _⟩ => show win0_1.index t 0 * 10000 + 1 * p.val = t.val * 10000 + p.val; rw [e0]; omega
  | ⟨1, _⟩ => show win0_1.index t 1 * 128 + 1 * q.val = q.val; rw [e1]; omega

/-- The block of the in-degree column at point `t` is the same rows of the column. -/
theorem blk2_apply (c : Dev nD) (t : Fin cfg0.N) (p : Fin 10000) (u : Fin 1) :
    (iblk0 V c 2 t : Vec Ideal S10000x1 .f32) (ix2 p u) = (V c main_v29 : S100000x1.Idx → EReal) (ix2 (rowOf t p) (0 : Fin 1)) := by
  obtain ⟨-, -, ⟨e0, e1⟩, -⟩ := idx_facts0 t
  unfold iblk0
  rw [View.read_apply]
  show V c main_v29 _ = V c main_v29 _
  congr 1
  funext a
  apply Fin.ext
  match a with
  | ⟨0, _⟩ => show win0_2.index t 0 * 10000 + 1 * p.val = t.val * 10000 + p.val; rw [e0]; omega
  | ⟨1, _⟩ => show win0_2.index t 1 * 1 + 1 * u.val = 0; rw [e1]; omega

/-- Every point loads the whole of `W`. -/
theorem blk3_apply (c : Dev nD) (t : Fin cfg0.N) (j : Fin 128) (q : Fin 128) :
    (iblk0 V c 3 t : Vec Ideal S128x128 .f32) (ix2 j q) = (V c main_arg2 : S128x128.Idx → EReal) (ix2 j q) := by
  obtain ⟨-, -, -, ⟨e0, e1⟩, -⟩ := idx_facts0 t
  unfold iblk0
  rw [View.read_apply]
  show V c main_arg2 _ = V c main_arg2 _
  congr 1
  funext a
  apply Fin.ext
  match a with
  | ⟨0, _⟩ => show win0_3.index t 0 * 128 + 1 * j.val = j.val; rw [e0]; omega
  | ⟨1, _⟩ => show win0_3.index t 1 * 128 + 1 * q.val = q.val; rw [e1]; omega

/-- Every point loads the whole bias row. -/
theorem blk4_apply (c : Dev nD) (t : Fin cfg0.N) (u : Fin 1) (q : Fin 128) :
    (iblk0 V c 4 t : Vec Ideal S1x128 .f32) (ix2 u q) = (V c main_v30 : S1x128.Idx → EReal) (ix2 (0 : Fin 1) q) := by
  obtain ⟨-, -, -, -, ⟨e0, e1⟩, -⟩ := idx_facts0 t
  unfold iblk0
  rw [View.read_apply]
  show V c main_v30 _ = V c main_v30 _
  congr 1
  funext a
  apply Fin.ext
  match a with
  | ⟨0, _⟩ => show win0_4.index t 0 * 1 + 1 * u.val = 0; rw [e0]; omega
  | ⟨1, _⟩ => show win0_4.index t 1 * 128 + 1 * q.val = q.val; rw [e1]; omega

/-! ## What each grid point leaves -/

/-- The residual block a grid point computes from the blocks it loads is the residual at the block's rows. -/
theorem hblk_apply (c : Dev nD) (t : Fin cfg0.N) (p : Fin 10000) (q : Fin 128) :
    k0_pay3 (F := Ideal) (iblk0 V c 1 t) (iblk0 V c 2 t) (iblk0 V c 3 t) (iblk0 V c 4 t) (iblk0 V c 0 t) (ix2 p q) = H0 V c (rowOf t p) q := by
  refine (pay3_apply (iblk0 V c 1 t) (iblk0 V c 2 t) (iblk0 V c 3 t) (iblk0 V c 4 t) (iblk0 V c 0 t) p q).trans ?_
  unfold H0 Cert.Gcn.resid
  rw [blk0_apply V c t p q, blk2_apply V c t p 0, blk4_apply V c t 0 q]
  exact add_sum_add_congr _ _ _ _ fun j => by rw [blk1_apply V c t p j, blk3_apply V c t j q]

/-- After every grid point the block result holds the residual block of that point. -/
theorem outs5_eq (c : Dev nD) (t : Fin cfg0.N) :
    (outsAt0 V c t.val t.isLt).1 = k0_pay3 (F := Ideal) (iblk0 V c 1 t) (iblk0 V c 2 t) (iblk0 V c 3 t) (iblk0 V c 4 t) (iblk0 V c 0 t) := by
  by_cases h0 : t.val % 10 = 0
  · rw [outsAt0_A V c t h0]
    dsimp only
    exact pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The first grid point leaves the zero pattern plus its block's column sums in the running sum. -/
theorem outs6_A (c : Dev nD) (t : Fin cfg0.N) (h0 : t.val % 10 = 0) (k : Fin 128) :
    (outsAt0 V c t.val t.isLt).2.1 (ix2 (0 : Fin 1) k) = Cert.Gcn.zeroF + ∑ p : Fin 10000, H0 V c (rowOf t p) k := by
  rw [outsAt0_A V c t h0]
  dsimp only
  refine (congrFun (pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) k)).trans ?_
  refine (pay4_apply (iblk0 V c 1 t) (iblk0 V c 2 t) (iblk0 V c 3 t) (iblk0 V c 4 t) (iblk0 V c 0 t) (k0_pay1 (F := Ideal)) k).trans ?_
  rw [pay1_apply k]
  exact add_sum_congr _ _ _ fun p => hblk_apply V c t p k

/-- A later grid point adds its block's column sums to the running sum the point before left. -/
theorem outs6_B (c : Dev nD) (t : Fin cfg0.N) (h0 : ¬t.val % 10 = 0) (k : Fin 128) :
    (outsAt0 V c t.val t.isLt).2.1 (ix2 (0 : Fin 1) k)
      = (outsAt0 V c (t.val - 1) (Nat.lt_of_le_of_lt (Nat.sub_le _ _) t.isLt)).2.1 (ix2 (0 : Fin 1) k) + ∑ p : Fin 10000, H0 V c (rowOf t p) k := by
  rw [outsAt0_B V c t h0]
  dsimp only
  refine (congrFun (pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) k)).trans ?_
  refine (pay4_apply (iblk0 V c 1 t) (iblk0 V c 2 t) (iblk0 V c 3 t) (iblk0 V c 4 t) (iblk0 V c 0 t) (outsAt0 V c (t.val - 1) (Nat.lt_of_le_of_lt (Nat.sub_le _ _) t.isLt)).2.1 k).trans ?_
  exact add_sum_congr _ _ _ fun p => hblk_apply V c t p k

/-- The first grid point leaves the zero pattern plus its block's column sums of squares in the running sum of squares. -/
theorem outs7_A (c : Dev nD) (t : Fin cfg0.N) (h0 : t.val % 10 = 0) (k : Fin 128) :
    (outsAt0 V c t.val t.isLt).2.2 (ix2 (0 : Fin 1) k)
      = Cert.Gcn.zeroF + ∑ p : Fin 10000, H0 V c (rowOf t p) k * H0 V c (rowOf t p) k := by
  rw [outsAt0_A V c t h0]
  dsimp only
  refine (congrFun (pieceA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) k)).trans ?_
  refine (pay5_apply (iblk0 V c 1 t) (iblk0 V c 2 t) (iblk0 V c 3 t) (iblk0 V c 4 t) (iblk0 V c 0 t) (k0_pay2 (F := Ideal)) k).trans ?_
  rw [pay2_apply k]
  exact add_sum_congr _ _ _ fun p => by rw [hblk_apply V c t p k]

/-- A later grid point adds its block's column sums of squares to the running sum the point before left. -/
theorem outs7_B (c : Dev nD) (t : Fin cfg0.N) (h0 : ¬t.val % 10 = 0) (k : Fin 128) :
    (outsAt0 V c t.val t.isLt).2.2 (ix2 (0 : Fin 1) k)
      = (outsAt0 V c (t.val - 1) (Nat.lt_of_le_of_lt (Nat.sub_le _ _) t.isLt)).2.2 (ix2 (0 : Fin 1) k) + ∑ p : Fin 10000, H0 V c (rowOf t p) k * H0 V c (rowOf t p) k := by
  rw [outsAt0_B V c t h0]
  dsimp only
  refine (congrFun (pieceB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) k)).trans ?_
  refine (pay5_apply (iblk0 V c 1 t) (iblk0 V c 2 t) (iblk0 V c 3 t) (iblk0 V c 4 t) (iblk0 V c 0 t) (outsAt0 V c (t.val - 1) (Nat.lt_of_le_of_lt (Nat.sub_le _ _) t.isLt)).2.2 k).trans ?_
  exact add_sum_congr _ _ _ fun p => by rw [hblk_apply V c t p k]

/-! ## The block result array -/

/-- The residual as an array over rows and features. -/
def G5 (c : Dev nD) : S100000x128.Idx → EReal := fun i => H0 V c ⟨(i 0).val, (i 0).isLt⟩ ⟨(i 1).val, (i 1).isLt⟩

/-- No block of the block result is cut at the array's end. -/
theorem xsize_facts5 : ∀ t : Fin cfg0.N, win0_5.xsize (grid0.coords t) (0 : Fin 2) = 10000 ∧ win0_5.xsize (grid0.coords t) (1 : Fin 2) = 128 :=
  (by decide +kernel : ∀ t : Fin grid0.N, _)

/-- What grid point `t` writes back to the block result is block `t` of the residual. -/
theorem flushed5_eq (c : Dev nD) (t : Fin cfg0.N) (hf : (cfg0.win 5).flush t = true) :
    (dat0 (F := Ideal) V c).flushed 5 t = ((cfg0.win 5).blk t).view.read (Elt Ideal) (G5 V c) := by
  obtain ⟨-, -, -, -, -, ⟨e0, e1⟩, -⟩ := idx_facts0 t
  show (cfg0.win 5).cut (grid0.coords t) ((dat0 (F := Ideal) V c).after 5 t) = _
  rw [after0_5, outs5_eq]
  funext j
  obtain ⟨p, q, rfl⟩ : ∃ (p : Fin 10000) (q : Fin 128), j = ix2 p q := ⟨j 0, j 1, eq_ix2 j⟩
  show k0_pay3 (F := Ideal) (iblk0 V c 1 t) (iblk0 V c 2 t) (iblk0 V c 3 t) (iblk0 V c 4 t) (iblk0 V c 0 t) (ix2 p q) = G5 V c (((cfg0.win 5).blk t).view.emb (ix2 p q))
  refine (hblk_apply V c t p q).trans ?_
  unfold G5
  refine congrArg₂ (H0 V c) (Fin.ext ?_) (Fin.ext ?_)
  · show t.val * 10000 + p.val = win0_5.index t 0 * 10000 + 1 * p.val
    rw [e0]; omega
  · show q.val = win0_5.index t 1 * 128 + 1 * q.val
    rw [e1]; omega

/-- Row `r` of the block result is written by grid point `r / 10000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, ⟨e0, e1⟩, -⟩ := idx_facts0 t
  obtain ⟨x0, x1⟩ := xsize_facts5 t
  refine ⟨t, flush0_5 t, ?_⟩
  show i ∈ ((View.whole main_v31_0).slice (win0_5.rect t)).set
  rw [View.set_slice_whole, Rect.mem_set_unit]
  intro a
  match a with
  | ⟨0, _⟩ =>
    show win0_5.index t 0 * 10000 ≤ (i 0 : Nat) ∧ (i 0 : Nat) < win0_5.index t 0 * 10000 + win0_5.xsize (grid0.coords t) 0
    rw [e0, x0, ht]; omega
  | ⟨1, _⟩ =>
    show win0_5.index t 1 * 128 ≤ (i 1 : Nat) ∧ (i 1 : Nat) < win0_5.index t 1 * 128 + win0_5.xsize (grid0.coords t) 1
    rw [e1, x1]; omega

/-- The block result array ends holding the residual. -/
theorem region0_h (c : Dev nD) (r : Fin 100000) (k : Fin 128) :
    ((dat0 (F := Ideal) V c).arrAt 5 cfg0.N : S100000x128.Idx → EReal) (ix2 r k) = H0 V c r k := by
  have hfin := (dat0 (F := Ideal) V c).arrAt_eq_of_cover 5 (G5 V c) (flushed5_eq V c) cover5
  exact congrFun hfin (ix2 r k)

/-! ## The two running column sums -/

/-- The one write-back of the running sum, after the last point, writes what that point left. -/
theorem flushed6_eq (c : Dev nD) (t : Fin cfg0.N) (hf : (cfg0.win 6).flush t = true) :
    (dat0 (F := Ideal) V c).flushed 6 t = ((cfg0.win 6).blk t).view.read (Elt Ideal) (outsAt0 V c t0_9.val t0_9.isLt).2.1 := by
  have hN : cfg0.N = 10 := N_0
  have h9 : t.val = 9 := by have := (flush0_6 t).mp hf; have := t.isLt; omega
  obtain rfl : t = t0_9 := Fin.ext h9
  show (cfg0.win 6).cut (grid0.coords t0_9) ((dat0 (F := Ideal) V c).after 6 t0_9) = _
  rw [after0_6]
  have hz' : (fun a => win0_6.index t0_9 a * main_v31_1.ty.shape.size a) = fun _ => 0 := funext fun a => by fin_cases a <;> decide
  exact (Memref.read_access_unit_zero (Elt Ideal) main_v31_1 hz' (fun a => by rw [congrFun hz' a]; simp) (outsAt0 V c t0_9.val t0_9.isLt).2.1).symm

/-- The one write-back of the running sum of squares, after the last point, writes what that point left. -/
theorem flushed7_eq (c : Dev nD) (t : Fin cfg0.N) (hf : (cfg0.win 7).flush t = true) :
    (dat0 (F := Ideal) V c).flushed 7 t = ((cfg0.win 7).blk t).view.read (Elt Ideal) (outsAt0 V c t0_9.val t0_9.isLt).2.2 := by
  have hN : cfg0.N = 10 := N_0
  have h9 : t.val = 9 := by have := (flush0_7 t).mp hf; have := t.isLt; omega
  obtain rfl : t = t0_9 := Fin.ext h9
  show (cfg0.win 7).cut (grid0.coords t0_9) ((dat0 (F := Ideal) V c).after 7 t0_9) = _
  rw [after0_7]
  have hz' : (fun a => win0_7.index t0_9 a * main_v31_2.ty.shape.size a) = fun _ => 0 := funext fun a => by fin_cases a <;> decide
  exact (Memref.read_access_unit_zero (Elt Ideal) main_v31_2 hz' (fun a => by rw [congrFun hz' a]; simp) (outsAt0 V c t0_9.val t0_9.isLt).2.2).symm

/-- The last point's block of a one-row result is the whole row. -/
theorem cover6 (i : S1x128.Idx) :
    ∃ t : Fin cfg0.N, (cfg0.win 6).flush t = true ∧ i ∈ ((cfg0.win 6).blk t).view.set :=
  ⟨t0_9, (flush0_6 t0_9).mpr rfl, by
    show i ∈ ((View.whole main_v31_1).slice (win0_6.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_6.index t0_9 0 * win0_6.size 0 ≤ (i 0 : Nat) ∧ (i 0 : Nat) < win0_6.index t0_9 0 * win0_6.size 0 + win0_6.xsize (grid0.coords t0_9) 0
                rw [show win0_6.index t0_9 0 * win0_6.size 0 = 0 from by decide +kernel, show win0_6.xsize (grid0.coords t0_9) 0 = 1 from by decide +kernel]; omega
    | ⟨1, _⟩ => show win0_6.index t0_9 1 * win0_6.size 1 ≤ (i 1 : Nat) ∧ (i 1 : Nat) < win0_6.index t0_9 1 * win0_6.size 1 + win0_6.xsize (grid0.coords t0_9) 1
                rw [show win0_6.index t0_9 1 * win0_6.size 1 = 0 from by decide +kernel, show win0_6.xsize (grid0.coords t0_9) 1 = 128 from by decide +kernel]; omega⟩

/-- The same for the one-row result of the sums of squares. -/
theorem cover7 (i : S1x128.Idx) :
    ∃ t : Fin cfg0.N, (cfg0.win 7).flush t = true ∧ i ∈ ((cfg0.win 7).blk t).view.set :=
  ⟨t0_9, (flush0_7 t0_9).mpr rfl, by
    show i ∈ ((View.whole main_v31_2).slice (win0_7.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_7.index t0_9 0 * win0_7.size 0 ≤ (i 0 : Nat) ∧ (i 0 : Nat) < win0_7.index t0_9 0 * win0_7.size 0 + win0_7.xsize (grid0.coords t0_9) 0
                rw [show win0_7.index t0_9 0 * win0_7.size 0 = 0 from by decide +kernel, show win0_7.xsize (grid0.coords t0_9) 0 = 1 from by decide +kernel]; omega
    | ⟨1, _⟩ => show win0_7.index t0_9 1 * win0_7.size 1 ≤ (i 1 : Nat) ∧ (i 1 : Nat) < win0_7.index t0_9 1 * win0_7.size 1 + win0_7.xsize (grid0.coords t0_9) 1
                rw [show win0_7.index t0_9 1 * win0_7.size 1 = 0 from by decide +kernel, show win0_7.xsize (grid0.coords t0_9) 1 = 128 from by decide +kernel]; omega⟩

/-- The running sum of column `k` after grid point `n` (zero past the grid). -/
def acc1 (c : Dev nD) (k : Fin 128) : ℕ → EReal := fun n =>
  if h : n < cfg0.N then ((outsAt0 V c n h).2.1 : S1x128.Idx → EReal) (ix2 (0 : Fin 1) k) else 0

/-- The running sum of squares of column `k` after grid point `n` (zero past the grid). -/
def acc2 (c : Dev nD) (k : Fin 128) : ℕ → EReal := fun n =>
  if h : n < cfg0.N then ((outsAt0 V c n h).2.2 : S1x128.Idx → EReal) (ix2 (0 : Fin 1) k) else 0

/-- Inside the grid the running sum is what the point left. -/
theorem acc1_of_lt (c : Dev nD) (k : Fin 128) (n : ℕ) (h : n < cfg0.N) :
    acc1 V c k n = ((outsAt0 V c n h).2.1 : S1x128.Idx → EReal) (ix2 (0 : Fin 1) k) := dif_pos h

/-- Inside the grid the running sum of squares is what the point left. -/
theorem acc2_of_lt (c : Dev nD) (k : Fin 128) (n : ℕ) (h : n < cfg0.N) :
    acc2 V c k n = ((outsAt0 V c n h).2.2 : S1x128.Idx → EReal) (ix2 (0 : Fin 1) k) := dif_pos h

/-- After the last point the running sum of column `k` is the column's sum over all rows. -/
theorem acc1_last (c : Dev nD) (k : Fin 128) : acc1 V c k 9 = ∑ r : Fin 100000, H0 V c r k := by
  have hN : cfg0.N = 10 := N_0
  refine Cert.Gcn.total_of_blocks (fun r => H0 V c r k) (acc1 V c k) ?_ ?_
  · rw [acc1_of_lt V c k 0 (by omega)]
    refine (outs6_A V c ⟨0, by omega⟩ rfl k).trans ?_
    refine add_sum_congr _ _ _ fun q => ?_
    exact congrArg (fun r => H0 V c r k) (Fin.ext (by show 0 * 10000 + q.val = q.val; omega))
  · intro t ht
    rw [acc1_of_lt V c k (t + 1) (by omega), acc1_of_lt V c k t (by omega)]
    exact outs6_B V c ⟨t + 1, by omega⟩ (by show ¬(t + 1) % 10 = 0; omega) k

/-- After the last point the running sum of squares of column `k` is the column's sum of squares over all rows. -/
theorem acc2_last (c : Dev nD) (k : Fin 128) : acc2 V c k 9 = ∑ r : Fin 100000, H0 V c r k * H0 V c r k := by
  have hN : cfg0.N = 10 := N_0
  refine Cert.Gcn.total_of_blocks (fun r => H0 V c r k * H0 V c r k) (acc2 V c k) ?_ ?_
  · rw [acc2_of_lt V c k 0 (by omega)]
    refine (outs7_A V c ⟨0, by omega⟩ rfl k).trans ?_
    refine add_sum_congr _ _ _ fun q => ?_
    exact congrArg (fun r => H0 V c r k * H0 V c r k) (Fin.ext (by show 0 * 10000 + q.val = q.val; omega))
  · intro t ht
    rw [acc2_of_lt V c k (t + 1) (by omega), acc2_of_lt V c k t (by omega)]
    exact outs7_B V c ⟨t + 1, by omega⟩ (by show ¬(t + 1) % 10 = 0; omega) k

/-- The first one-row result ends holding the column sums of the residual over all rows. -/
theorem region0_s1 (c : Dev nD) (k : Fin 128) :
    ((dat0 (F := Ideal) V c).arrAt 6 cfg0.N : S1x128.Idx → EReal) (ix2 (0 : Fin 1) k) = ∑ r : Fin 100000, H0 V c r k := by
  have hfin := (dat0 (F := Ideal) V c).arrAt_eq_of_cover 6 (outsAt0 V c t0_9.val t0_9.isLt).2.1 (flushed6_eq V c) cover6
  refine (congrFun hfin (ix2 (0 : Fin 1) k)).trans ?_
  exact (acc1_of_lt V c k 9 t0_9.isLt).symm.trans (acc1_last V c k)

/-- The second one-row result ends holding the column sums of the squared residual over all rows. -/
theorem region0_s2 (c : Dev nD) (k : Fin 128) :
    ((dat0 (F := Ideal) V c).arrAt 7 cfg0.N : S1x128.Idx → EReal) (ix2 (0 : Fin 1) k)
      = ∑ r : Fin 100000, H0 V c r k * H0 V c r k := by
  have hfin := (dat0 (F := Ideal) V c).arrAt_eq_of_cover 7 (outsAt0 V c t0_9.val t0_9.isLt).2.2 (flushed7_eq V c) cover7
  refine (congrFun hfin (ix2 (0 : Fin 1) k)).trans ?_
  exact (acc2_of_lt V c k 9 t0_9.isLt).symm.trans (acc2_last V c k)

end Cert.Gcn.KerSide

end
-- ==== Proof.KRegion1.lean ====
/-
  The second region (normalise, scale, shift, clamp), read as a value: whatever the region finds in its arrays, the
  array it writes holds, at row `r` and feature `k`, `max (((h r k - mean k) · (var k + ε)^(-1/2)) · gam k + bet k) 0`.
  Each of the ten grid points writes one block of 10000 consecutive rows; a point's block of `h` is the same rows of
  `h`, and the four one-row operands are read whole at every point; the ten blocks tile the array.
-/
import proofs.«143895_j43920335568926_1_alg».proof.Proof.Gen.KernelIdeal.Frame
import proofs.«143895_j43920335568926_1_alg».proof.Proof.Spec
import proofs.«143895_j43920335568926_1_alg».proof.Proof.LibColumns
import Idealize.ShloMosaic.Lib.ValueIdx
import Idealize.ShloMosaic.Lib.Pipeline.Value

noncomputable section

namespace Cert.Gcn.KerSide

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace Region1

theorem hz1 : (![0, 0] : Fin 2 → Nat) = fun _ => 0 := funext fun a => by fin_cases a <;> rfl

/-- A row `[1, b]` broadcast over `[a, b]` reads, at `(p, q)`, the row's entry `(0, q)`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The body's arithmetic at an entry of the block: the row operands are read at the entry's column. -/
theorem pay1_apply (v0 : Vec Ideal S1x128 .f32) (v5 : Vec Ideal S10000x128 .f32) (v7 v13 v17 : Vec Ideal S1x128 .f32)
    (p : Fin 10000) (q : Fin 128) :
    (k1_pay1 v0 v5 v7 v13 v17 : S10000x128.Idx → EReal) (ix2 p q)
      = max ((((v5 (ix2 p q) : EReal) - v7 (ix2 (0 : Fin 1) q)) * Ideal.rsqrt (v0 (ix2 (0 : Fin 1) q) + Cert.Gcn.epsF))
          * v13 (ix2 (0 : Fin 1) q) + v17 (ix2 (0 : Fin 1) q)) Cert.Gcn.zeroF := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- What the body leaves in the written block, at an entry: the body's arithmetic of the loaded blocks. -/
theorem out1_5_apply (x0 : Vec Ideal S10000x128 .f32) (x1 x2 x3 x4 : Vec Ideal S1x128 .f32) (p : Fin 10000) (q : Fin 128) :
    (out1_5 x0 x1 x2 x3 x4 : S10000x128.Idx → EReal) (ix2 p q)
      = max ((((x0 (ix2 p q) : EReal) - x1 (ix2 (0 : Fin 1) q)) * Ideal.rsqrt (x2 (ix2 (0 : Fin 1) q) + Cert.Gcn.epsF))
          * x3 (ix2 (0 : Fin 1) q) + x4 (ix2 (0 : Fin 1) q)) Cert.Gcn.zeroF := by
  unfold out1_5
  rw [View.canon_unit_zero hz1]
  simp only [View.ld_unit_zero (S := S10000x128) hz1, View.ld_unit_zero (S := S1x128) hz1]
  exact pay1_apply x2 x0 x1 x3 x4 p q

/-- The printed index maps over the grid: at point `t` the block of `h` and the written block are block `(t, 0)`; the
    four one-row operands are block `(0, 0)`, the whole row. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of `h` at point `t` is rows `10000 t … 10000 t + 9999` of `h`. -/
theorem iblk1_0_apply (c : Dev nD) (t : Fin cfg1.N) (p : Fin 10000) (q : Fin 128) (r : Fin 100000)
    (hr : r.val = t.val * 10000 + p.val) :
    (iblk1 (F := Ideal) V c 0 t : S10000x128.Idx → EReal) (ix2 p q) = (V c main_v31_0 : S100000x128.Idx → EReal) (ix2 r q) := by
  obtain ⟨e0, e1, -⟩ := idx_facts1 t
  unfold iblk1
  rw [View.read_apply]
  show (V c main_v31_0 : S100000x128.Idx → EReal) _ = _
  refine congrArg (V c main_v31_0 : S100000x128.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * q.val = q.val; rw [e1]; omega

/-- The mean row is read whole at every point. -/
theorem iblk1_1_apply (c : Dev nD) (t : Fin cfg1.N) (q : Fin 128) :
    (iblk1 (F := Ideal) V c 1 t : S1x128.Idx → EReal) (ix2 (0 : Fin 1) q) = (V c main_v42 : S1x128.Idx → EReal) (ix2 (0 : Fin 1) q) := by
  obtain ⟨-, -, e10, e11, e20, e21, e30, e31, e40, e41, -⟩ := idx_facts1 t
  unfold iblk1
  rw [View.read_apply]
  show (V c main_v42 : S1x128.Idx → EReal) _ = _
  refine congrArg (V c main_v42 : S1x128.Idx → EReal) (funext fun a => Fin.ext ?_)
  match a with
  | ⟨0, _⟩ => show win1_1.index t (0 : Fin 2) * 1 + 1 * 0 = 0; rw [e10]
  | ⟨1, _⟩ => show win1_1.index t (1 : Fin 2) * 128 + 1 * q.val = q.val; rw [e11]; omega

/-- The variance row is read whole at every point. -/
theorem iblk1_2_apply (c : Dev nD) (t : Fin cfg1.N) (q : Fin 128) :
    (iblk1 (F := Ideal) V c 2 t : S1x128.Idx → EReal) (ix2 (0 : Fin 1) q) = (V c main_v43 : S1x128.Idx → EReal) (ix2 (0 : Fin 1) q) := by
  obtain ⟨-, -, e10, e11, e20, e21, e30, e31, e40, e41, -⟩ := idx_facts1 t
  unfold iblk1
  rw [View.read_apply]
  show (V c main_v43 : S1x128.Idx → EReal) _ = _
  refine congrArg (V c main_v43 : S1x128.Idx → EReal) (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

/-- The scale row is read whole at every point. -/
theorem iblk1_3_apply (c : Dev nD) (t : Fin cfg1.N) (q : Fin 128) :
    (iblk1 (F := Ideal) V c 3 t : S1x128.Idx → EReal) (ix2 (0 : Fin 1) q) = (V c main_v40 : S1x128.Idx → EReal) (ix2 (0 : Fin 1) q) := by
  obtain ⟨-, -, e10, e11, e20, e21, e30, e31, e40, e41, -⟩ := idx_facts1 t
  unfold iblk1
  rw [View.read_apply]
  show (V c main_v40 : S1x128.Idx → EReal) _ = _
  refine congrArg (V c main_v40 : S1x128.Idx → EReal) (funext fun a => Fin.ext ?_)
  match a with
  | ⟨0, _⟩ => show win1_3.index t (0 : Fin 2) * 1 + 1 * 0 = 0; rw [e30]
  | ⟨1, _⟩ => show win1_3.index t (1 : Fin 2) * 128 + 1 * q.val = q.val; rw [e31]; omega

/-- The shift row is read whole at every point. -/
theorem iblk1_4_apply (c : Dev nD) (t : Fin cfg1.N) (q : Fin 128) :
    (iblk1 (F := Ideal) V c 4 t : S1x128.Idx → EReal) (ix2 (0 : Fin 1) q) = (V c main_v41 : S1x128.Idx → EReal) (ix2 (0 : Fin 1) q) := by
  obtain ⟨-, -, e10, e11, e20, e21, e30, e31, e40, e41, -⟩ := idx_facts1 t
  unfold iblk1
  rw [View.read_apply]
  show (V c main_v41 : S1x128.Idx → EReal) _ = _
  refine congrArg (V c main_v41 : S1x128.Idx → EReal) (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-- The written block at point `t`, read off an array, is rows `10000 t … 10000 t + 9999` of the array. -/
theorem blk5_read_apply (G : S100000x128.Idx → EReal) (t : Fin cfg1.N) (p : Fin 10000) (q : Fin 128) (r : Fin 100000)
    (hr : r.val = t.val * 10000 + p.val) :
    (((cfg1.win 5).blk t).view.read (Elt Ideal) G : S10000x128.Idx → EReal) (ix2 p q) = G (ix2 r q) := by
  obtain ⟨-, -, -, -, -, -, -, -, -, -, e0, e1⟩ := idx_facts1 t
  rw [View.read_apply]
  show G _ = _
  refine congrArg G (funext fun a => Fin.ext ?_)
  match a with
  | ⟨0, _⟩ => show win1_5.index t (0 : Fin 2) * 10000 + 1 * p.val = r.val; rw [e0, hr]; omega
  | ⟨1, _⟩ => show win1_5.index t (1 : Fin 2) * 128 + 1 * q.val = q.val; rw [e1]; omega

/-- The array region 1 writes, as one function of the arrays it finds. -/
def G1 (c : Dev nD) : S100000x128.Idx → EReal := fun i =>
  Cert.Gcn.normRelu (fun r k => (V c main_v31_0 : S100000x128.Idx → EReal) (ix2 r k))
    (fun k => (V c main_v42 : S1x128.Idx → EReal) (ix2 (0 : Fin 1) k))
    (fun k => (V c main_v43 : S1x128.Idx → EReal) (ix2 (0 : Fin 1) k))
    (fun k => (V c main_v40 : S1x128.Idx → EReal) (ix2 (0 : Fin 1) k))
    (fun k => (V c main_v41 : S1x128.Idx → EReal) (ix2 (0 : Fin 1) k)) ⟨(i 0).val, idx2_lt0 i⟩ ⟨(i 1).val, idx2_lt1 i⟩

/-- What point `t` writes back is block `t` of that function. -/
theorem flushed1_eq (c : Dev nD) (t : Fin cfg1.N) :
    (dat1 (F := Ideal) V c).flushed 5 t = ((cfg1.win 5).blk t).view.read (Elt Ideal) (G1 V c) := by
  have hN : cfg1.N = 10 := N_1
  show (cfg1.win 5).cut (grid1.coords t) ((dat1 (F := Ideal) V c).after 5 t) = _
  rw [after1_5]
  refine funext fun (j : S10000x128.Idx) => ?_
  obtain ⟨p, q, rfl⟩ : ∃ (p : Fin 10000) (q : Fin 128), j = ix2 p q := ⟨j 0, j 1, eq_ix2 j⟩
  have ht := t.isLt
  obtain ⟨r, hr⟩ : ∃ r : Fin 100000, r.val = t.val * 10000 + p.val := ⟨⟨t.val * 10000 + p.val, by have := p.isLt; omega⟩, rfl⟩
  refine (out1_5_apply (iblk1 (F := Ideal) V c 0 t) (iblk1 (F := Ideal) V c 1 t) (iblk1 (F := Ideal) V c 2 t)
    (iblk1 (F := Ideal) V c 3 t) (iblk1 (F := Ideal) V c 4 t) p q).trans ?_
  rw [iblk1_0_apply V c t p q r hr, iblk1_1_apply V c t q, iblk1_2_apply V c t q, iblk1_3_apply V c t q, iblk1_4_apply V c t q]
  exact (blk5_read_apply (G1 V c) t p q r hr).symm

/-- An entry of the array is in point `t`'s block iff each coordinate is in the block's range on its axis. -/
theorem mem_blk5 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v44).slice (win1_5.rect t)).set ↔ _
  rw [View.set_slice_whole, Rect.mem_set_unit]
  exact Iff.rfl

/-- The ten blocks tile the array: row `r` is in the block of point `r / 10000`. -/
theorem cover1 (i : S100000x128.Idx) :
    ∃ t : Fin cfg1.N, (cfg1.win 5).flush t = true ∧ i ∈ ((cfg1.win 5).blk t).view.set := by
  have hN : cfg1.N = 10 := N_1
  have hi0 : (i 0).val < 100000 := idx2_lt0 i
  have hi1 : (i 1).val < 128 := idx2_lt1 i
  obtain ⟨t, ht⟩ : ∃ t : Fin cfg1.N, t.val = (i 0).val / 10000 := ⟨⟨(i 0).val / 10000, by omega⟩, rfl⟩
  obtain ⟨-, -, -, -, -, -, -, -, -, -, e0, e1⟩ := idx_facts1 t
  refine ⟨t, flush1_5 t, ?_⟩
  rw [mem_blk5]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 128 ≤ (i 1).val ∧ (i 1).val < win1_5.index t (1 : Fin 2) * 128 + 128
    rw [e1]; omega

/-- The array after the region is that function. -/
theorem final1 (c : Dev nD) : (dat1 (F := Ideal) V c).arrAt 5 cfg1.N = G1 V c :=
  (dat1 (F := Ideal) V c).arrAt_eq_of_cover 5 (G1 V c) (fun t _ => flushed1_eq V c t) cover1

end Region1

/-- What region 1 leaves in its result array, entry by entry, from the arrays it finds. -/
theorem region1_apply (c : Dev nD) (r : Fin 100000) (k : Fin 128) :
    ((dat1 (F := Ideal) V c).arrAt 5 cfg1.N : S100000x128.Idx → EReal) (ix2 r k)
      = Cert.Gcn.normRelu (fun r k => (V c main_v31_0 : S100000x128.Idx → EReal) (ix2 r k))
          (fun k => (V c main_v42 : S1x128.Idx → EReal) (ix2 (0 : Fin 1) k))
          (fun k => (V c main_v43 : S1x128.Idx → EReal) (ix2 (0 : Fin 1) k))
          (fun k => (V c main_v40 : S1x128.Idx → EReal) (ix2 (0 : Fin 1) k))
          (fun k => (V c main_v41 : S1x128.Idx → EReal) (ix2 (0 : Fin 1) k)) r k := by
  exact congrFun (Region1.final1 V c) (ix2 r k)

end Cert.Gcn.KerSide

end
-- ==== Proof.KHost0.lean ====
/-
  The first host stretch of the kernel-side program, read as values over the extended reals.

  From the node features `x` and the edge list `e` (row 0 the sources, row 1 the destinations) the program forms: the
  out-degree of each node (a scatter of ones along the sources onto zeros, clamped below at one), its in-degree (the same
  along the destinations), the features scaled row-wise by the inverse square root of the out-degree, those rows gathered
  along the sources (a negative source wrapped by the row count), and the gathered rows added along the destinations onto
  zeros: the aggregate. It also lays the in-degrees out as a column and the bias as a row.

  `degK` and `aggK` are those compositions; the `after0_*` statements read the program's buffers after the stretch as
  them; `degK_real` and `aggK_real` say the in-degree is a real number at least one and the aggregate of real features
  is real: a scatter adds to each entry a finite sum of update entries, a gather reads an entry of its operand.
-/
import proofs.«143895_j43920335568926_1_alg».proof.Proof.Gen.KernelIdeal.Launch
import proofs.«143895_j43920335568926_1_alg».proof.Proof.Spec
import proofs.«143895_j43920335568926_1_alg».proof.Proof.LibColumns
import Idealize.ShloMosaic.Lib.StableHlo.Run
import Idealize.ShloMosaic.Lib.ValueIdx
import Idealize.ShloMosaic.Lib.Pipeline.Value
import Idealize.ShloMosaic.PureOps.Ideal

noncomputable section

namespace Cert.Gcn.KerSide

open Cert.KernelIdeal Cert.KernelIdeal.Gen Idealize.ShloMosaic Idealize.ShloMosaic.StableHlo Idealize.ShloMosaic.ValueIdx

/-- Row `k` of the edge list as a vector of 600000 node numbers. -/
def edgeRow0 (e : S2x600000.Idx → BitVec 32) : S600000.Idx → BitVec 32 :=
  shapeCast S600000 (extractStridedSlice S1x600000 ![0, 0] e slices_S2x600000_S1x600000_0_0) shapeCasts_S1x600000_S600000
def edgeRow1 (e : S2x600000.Idx → BitVec 32) : S600000.Idx → BitVec 32 :=
  shapeCast S600000 (extractStridedSlice S1x600000 ![1, 0] e slices_S2x600000_S1x600000_1_0) shapeCasts_S1x600000_S600000

/-- One per edge. -/
def onesE : S600000.Idx → EReal :=
  broadcastInDim S600000 ![] bcast_S_S600000 (constant (F := Ideal) S_ .f32 0x3F800000#32)

/-- The out-degree: ones added along the sources onto zeros, clamped below at one. -/
def degOutK (e : S2x600000.Idx → BitVec 32) : S100000.Idx → EReal :=
  maximumf (F := Ideal)
    (Host.scatterAdd (F := Ideal) scatter_S100000_S600000x1_S600000_n_0_0_1
      (broadcastInDim S100000 ![] bcast_S_S100000 (constant (F := Ideal) S_ .f32 0x00000000#32))
      (broadcastInDim S600000x1 ![0] bcast_S600000_S600000x1_0 (edgeRow0 e))
      onesE)
    (broadcastInDim S100000 ![] bcast_S_S100000 (constant (F := Ideal) S_ .f32 0x3F800000#32))

/-- The in-degree: ones added along the destinations onto zeros, clamped below at one. -/
def degK (e : S2x600000.Idx → BitVec 32) : S100000.Idx → EReal :=
  maximumf (F := Ideal)
    (Host.scatterAdd (F := Ideal) scatter_S100000_S600000x1_S600000_n_0_0_1
      (broadcastInDim S100000 ![] bcast_S_S100000 (constant (F := Ideal) S_ .f32 0x00000000#32))
      (broadcastInDim S600000x1 ![0] bcast_S600000_S600000x1_0 (edgeRow1 e))
      onesE)
    (broadcastInDim S100000 ![] bcast_S_S100000 (constant (F := Ideal) S_ .f32 0x3F800000#32))

/-- The features scaled row-wise by the inverse square root of the out-degree. -/
def scaledK (x : S100000x128.Idx → EReal) (e : S2x600000.Idx → BitVec 32) : S100000x128.Idx → EReal :=
  mulf (F := Ideal) (φ := .f32) x
    (broadcastInDim S100000x128 ![0, 1] bcast_S100000x1_S100000x128_0_1
      (broadcastInDim S100000x1 ![0] bcast_S100000_S100000x1_0 (Host.rsqrt (F := Ideal) (φ := .f32) (degOutK e))))

/-- The sources as gather positions: a negative one wrapped by the row count. -/
def srcIdxK (e : S2x600000.Idx → BitVec 32) : S600000x1.Idx → BitVec 32 :=
  broadcastInDim S600000x1 ![0] bcast_S600000_S600000x1_0
    (select
      (cmpi .slt (edgeRow0 e) (broadcastInDim S600000 ![] bcast_S_S600000 (constantI S_ 32 0#32)))
      (addi (edgeRow0 e) (broadcastInDim S600000 ![] bcast_S_S600000 (constantI S_ 32 100000#32)))
      (edgeRow0 e))

/-- The scaled rows gathered along the sources. -/
def gatheredK (x : S100000x128.Idx → EReal) (e : S2x600000.Idx → BitVec 32) : S600000x128.Idx → EReal :=
  Host.gather gather_S100000x128_S600000x1_S600000x128_1_0_n_n_0_1_1128 (scaledK x e) (srcIdxK e)

/-- The aggregate: the gathered rows added along the destinations onto zeros. -/
def aggK (x : S100000x128.Idx → EReal) (e : S2x600000.Idx → BitVec 32) : S100000x128.Idx → EReal :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 (edgeRow1 e))
    (gatheredK x e)

variable (Wv : Valuation τ sig (Elt Ideal))

/-! ## The buffers after the stretch -/

attribute [local irreducible] Host.scatterAdd Host.gather in
set_option maxRecDepth 8192 in
set_option maxHeartbeats 400000 in
/-- The aggregate's buffer holds `aggK` of the features and the edge list. -/
theorem after0_agg :
    (after hostOps0 Wv (Proc.devRef .tc main_v28) : S100000x128.Idx → EReal)
      = aggK (Wv (Proc.devRef .tc main_arg0)) (Wv (Proc.devRef .tc main_arg1)) := by
  dsimp only [hostOps0]
  after_results_simp
  rfl

attribute [local irreducible] Host.scatterAdd Host.gather in
set_option maxRecDepth 8192 in
set_option maxHeartbeats 400000 in
/-- The in-degree column's buffer holds the in-degrees laid out as a column. -/
theorem after0_degcol_eq :
    (after hostOps0 Wv (Proc.devRef .tc main_v29) : S100000x1.Idx → EReal)
      = broadcastInDim S100000x1 ![0] bcast_S100000_S100000x1_0 (degK (Wv (Proc.devRef .tc main_arg1))) := by
  dsimp only [hostOps0]
  after_results_simp
  rfl

/-- The in-degree column at row `r` is the in-degree of node `r`. -/
theorem after0_degcol (r : Fin 100000) :
    (after hostOps0 Wv (Proc.devRef .tc main_v29) : S100000x1.Idx → EReal) (ix2 r (0 : Fin 1))
      = degK (Wv (Proc.devRef .tc main_arg1)) (ix1 r) := by
  rw [after0_degcol_eq]
  refine broadcastInDim_apply _ _ _ _ (ix1 r) fun a => ?_
  match a with
  | ⟨0, _⟩ => rfl

set_option maxRecDepth 8192 in
/-- The bias row's buffer holds the bias laid out as a row. -/
theorem after0_bias_eq :
    (after hostOps0 Wv (Proc.devRef .tc main_v30) : S1x128.Idx → EReal)
      = shapeCast S1x128 (Wv (Proc.devRef .tc main_arg3) : S128.Idx → EReal) shapeCasts_S128_S1x128 := by
  dsimp only [hostOps0]
  after_results_simp
  rfl

/-- The bias row at column `k` is the bias at `k`. -/
theorem after0_bias (k : Fin 128) :
    (after hostOps0 Wv (Proc.devRef .tc main_v30) : S1x128.Idx → EReal) (ix2 (0 : Fin 1) k)
      = Wv (Proc.devRef .tc main_arg3) (ix1 k) := by
  rw [after0_bias_eq]
  refine shapeCast_apply _ _ _ (ix1 k) ?_
  rw [Shape.rowMajor_val_two, Shape.rowMajor_val_one]
  show k.val = 0 * 128 + k.val
  omega

/-- No operation of the stretch writes the features' buffer. -/
theorem after0_arg0 : after hostOps0 Wv (Proc.devRef .tc main_arg0) = Wv (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation of the stretch writes the edge list's buffer. -/
theorem after0_arg1 : after hostOps0 Wv (Proc.devRef .tc main_arg1) = Wv (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation of the stretch writes the weights' buffer. -/
theorem after0_arg2 : after hostOps0 Wv (Proc.devRef .tc main_arg2) = Wv (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation of the stretch writes the bias's buffer. -/
theorem after0_arg3 : after hostOps0 Wv (Proc.devRef .tc main_arg3) = Wv (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation of the stretch writes the scale's buffer. -/
theorem after0_arg4 : after hostOps0 Wv (Proc.devRef .tc main_arg4) = Wv (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation of the stretch writes the shift's buffer. -/
theorem after0_arg5 : after hostOps0 Wv (Proc.devRef .tc main_arg5) = Wv (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## Realness -/

open Cert.Gcn

/-- The pattern of `1.0` denotes the real one: sign clear, exponent field 127, fraction field zero. -/
theorem ofBits_one : Ideal.ofBits .f32 0x3F800000#32 = ((1 : ℝ) : EReal) := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = _
  unfold Ideal.ieee
  simp only [hneg, hex, hfr]
  norm_num

/-- A broadcast's entry is an entry of its operand. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := hx _

/-- A scatter-add, at the exact values, adds to each entry a finite sum of update entries: real operand and real
    updates give a real result, wherever the updates land. -/
theorem isReal_scatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Host.scatterAdd (F := Ideal) (φ := .f32) d x idx upd i) := by
  show IsReal (x i + ∑ j ∈ _, upd j)
  exact (hx i).add (isReal_sum _ _ fun j _ => hu j)

/-- A real number clamped below at the pattern of one is a real number that is at least one. -/
theorem max_one_real (v : EReal) (hv : IsReal v) :
    ∃ a : ℝ, 1 ≤ a ∧ max v (Ideal.ofBits .f32 0x3F800000#32) = (a : EReal) := by
  obtain ⟨b, rfl⟩ := hv
  refine ⟨max b 1, le_max_right _ _, ?_⟩
  rw [ofBits_one]
  exact (EReal.coe_strictMono.monotone.map_max).symm

/-- The entrywise clamp of a real vector below at a vector of ones. -/
theorem maximumf_ones_real {s : Shape} (v ones : s.Idx → EReal) (i : s.Idx) (hv : IsReal (v i))
    (h1 : ones i = Ideal.ofBits .f32 0x3F800000#32) :
    ∃ a : ℝ, 1 ≤ a ∧ maximumf (F := Ideal) (φ := .f32) v ones i = (a : EReal) := by
  show ∃ a : ℝ, 1 ≤ a ∧ max (v i) (ones i) = (a : EReal)
  rw [h1]
  exact max_one_real _ hv

/-- The inverse square root, entrywise, of a vector whose entry is a real number at least one. -/
theorem isReal_hostRsqrt {s : Shape} (v : s.Idx → EReal) (k : s.Idx) (h : ∃ a : ℝ, 1 ≤ a ∧ v k = (a : EReal)) :
    IsReal (Host.rsqrt (F := Ideal) (φ := .f32) v k) := by
  obtain ⟨a, ha, h⟩ := h
  show IsReal (Ideal.rsqrt (v k))
  rw [h]
  exact isReal_rsqrt_of_one_le ha

/-- The entrywise product of two real arrays. -/
theorem isReal_mulf {s : Shape} (u v : s.Idx → EReal) (i : s.Idx) (hu : IsReal (u i)) (hv : IsReal (v i)) :
    IsReal (mulf (F := Ideal) (φ := .f32) u v i) := by
  show IsReal (u i * v i)
  exact hu.mul hv

/-- A gathered entry is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- The zero pattern broadcast to any shape is real at every entry. -/
theorem isReal_zeros {t : Shape} (h : S_.BroadcastsInDim t ![]) (j : t.Idx) :
    IsReal (broadcastInDim t ![] h (constant (F := Ideal) S_ .f32 0x00000000#32) j) :=
  isReal_broadcastInDim _ _ _ (fun _ => isReal_zeroF) j

/-- One per edge is real. -/
theorem onesE_real (j : S600000.Idx) : IsReal (onesE j) :=
  isReal_broadcastInDim _ _ _ (fun _ => ⟨1, ofBits_one⟩) j

/-- Ones added along any positions onto zeros, clamped below at one: a real number that is at least one. -/
theorem clampedCount_real (idx : S600000x1.Idx → BitVec 32) (i : S100000.Idx) :
    ∃ a : ℝ, 1 ≤ a ∧ maximumf (F := Ideal)
      (Host.scatterAdd (F := Ideal) scatter_S100000_S600000x1_S600000_n_0_0_1
        (broadcastInDim S100000 ![] bcast_S_S100000 (constant (F := Ideal) S_ .f32 0x00000000#32)) idx onesE)
      (broadcastInDim S100000 ![] bcast_S_S100000 (constant (F := Ideal) S_ .f32 0x3F800000#32)) i = (a : EReal) :=
  maximumf_ones_real _ _ i (isReal_scatterAdd _ _ _ _ (isReal_zeros _) onesE_real i) rfl

/-- The out-degree of a node is a real number that is at least one. -/
theorem degOutK_real (e : S2x600000.Idx → BitVec 32) (i : S100000.Idx) :
    ∃ a : ℝ, 1 ≤ a ∧ degOutK e i = (a : EReal) := clampedCount_real _ i

/-- The in-degree of a node is a real number that is at least one. -/
theorem degK_real (e : S2x600000.Idx → BitVec 32) (r : Fin 100000) :
    ∃ a : ℝ, 1 ≤ a ∧ degK e (ix1 r) = (a : EReal) := clampedCount_real _ (ix1 r)

/-- Real features scaled by the inverse square roots of the out-degrees are real. -/
theorem scaledK_real (x : S100000x128.Idx → EReal) (e : S2x600000.Idx → BitVec 32) (hx : ∀ i, IsReal (x i))
    (i : S100000x128.Idx) : IsReal (scaledK x e i) :=
  isReal_mulf _ _ i (hx i) (isReal_broadcastInDim _ _ _
    (fun k => isReal_broadcastInDim _ _ _ (fun k' => isReal_hostRsqrt _ k' (degOutK_real e k')) k) i)

/-- The aggregate of real features is real. -/
theorem aggK_real (x : S100000x128.Idx → EReal) (e : S2x600000.Idx → BitVec 32)
    (hx : ∀ i, Cert.Gcn.IsReal (x i)) (i : S100000x128.Idx) : Cert.Gcn.IsReal (aggK x e i) :=
  isReal_scatterAdd _ _ _ _ (isReal_zeros _) (isReal_gather _ _ _ (scaledK_real x e hx)) i

end Cert.Gcn.KerSide

end
-- ==== Proof.KHost1.lean ====
/-
  The host operations between the two regions, read as values: from the column sums `s1` and sums of squares `s2` the
  first region leaves, the mean is `s1 / n`, the variance `s2 / n - mean · mean`; scale and shift are the arguments
  laid out as one row; the residual array is not touched.
-/
import proofs.«143895_j43920335568926_1_alg».proof.Proof.Gen.KernelIdeal.Frame
import proofs.«143895_j43920335568926_1_alg».proof.Proof.Spec
import proofs.«143895_j43920335568926_1_alg».proof.Proof.LibColumns
import Idealize.ShloMosaic.Lib.ValueIdx
import Idealize.ShloMosaic.Lib.Pipeline.Value
import Idealize.ShloMosaic.Lib.StableHlo.Run

noncomputable section

namespace Cert.Gcn.KerSide

open Cert.KernelIdeal Cert.KernelIdeal.Gen Idealize.ShloMosaic Idealize.ShloMosaic.TcCoe Idealize.ShloMosaic.ValueIdx Idealize.SL.Sem

open Idealize.ShloMosaic.StableHlo

variable (Wv : Valuation τ sig (Elt Ideal))

namespace Host1

/-- A row `[1, b]` cast to `[b]` reads, at `k`, the row's entry `(0, k)`. -/
theorem shapeCast_1b_b_apply {α : Type} {b : ℕ} (x : (⟨2, ![1, b]⟩ : Shape).Idx → α)
    (h : (⟨2, ![1, b]⟩ : Shape).ShapeCasts ⟨1, ![b]⟩) (k : Fin b) :
    shapeCast ⟨1, ![b]⟩ x h (ix1 k) = x (ix2 (0 : Fin 1) k) :=
  shapeCast_apply x h _ _ (by
    rw [Shape.rowMajor_val_two, Shape.rowMajor_val_one]
    show (0 : ℕ) * b + k.val = k.val
    rw [Nat.zero_mul, Nat.zero_add])

/-- A vector `[b]` cast to the row `[1, b]` reads, at `(0, k)`, the vector's entry `k`. -/
theorem shapeCast_b_1b_apply {α : Type} {b : ℕ} (x : (⟨1, ![b]⟩ : Shape).Idx → α)
    (h : (⟨1, ![b]⟩ : Shape).ShapeCasts ⟨2, ![1, b]⟩) (k : Fin b) :
    shapeCast ⟨2, ![1, b]⟩ x h (ix2 (0 : Fin 1) k) = x (ix1 k) :=
  shapeCast_apply x h _ _ (by
    rw [Shape.rowMajor_val_two, Shape.rowMajor_val_one]
    show k.val = (0 : ℕ) * b + k.val
    rw [Nat.zero_mul, Nat.zero_add])

/-- A scalar broadcast to any shape reads the scalar everywhere. -/
theorem broadcastInDim_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- The quotient of a `[128]` vector cast from a `[1,128]` row by the splat of the row count, at `k`. -/
theorem div_row_apply (x : S1x128.Idx → EReal) (k : Fin 128) :
    Host.divf (F := Ideal) (φ := .f32) (shapeCast S128 x shapeCasts_S1x128_S128)
        (broadcastInDim S128 ![] bcast_S_S128 (constant (F := Ideal) S_ .f32 0x47C35000#32)) (ix1 k)
      = Ideal.div (x (ix2 (0 : Fin 1) k)) Cert.Gcn.nF := by
  show Ideal.div (shapeCast S128 x shapeCasts_S1x128_S128 (ix1 k))
      (broadcastInDim S128 ![] bcast_S_S128 (constant (F := Ideal) S_ .f32 0x47C35000#32) (ix1 k)) = _
  rw [shapeCast_1b_b_apply, broadcastInDim_scalar_apply]
  rfl

end Host1

theorem after1_mean (k : Fin 128) :
    (after hostOps1 Wv (Proc.devRef .tc main_v42) : S1x128.Idx → EReal) (ix2 (0 : Fin 1) k)
      = Cert.Gcn.meanOf (fun k => (Wv (Proc.devRef .tc main_v31_1) : S1x128.Idx → EReal) (ix2 (0 : Fin 1) k)) k := by
  have e : (after hostOps1 Wv (Proc.devRef .tc main_v42) : S1x128.Idx → EReal)
      = shapeCast S1x128 (Host.divf (F := Ideal) (φ := .f32)
          (shapeCast S128 (Wv (Proc.devRef .tc main_v31_1) : S1x128.Idx → EReal) shapeCasts_S1x128_S128)
          (broadcastInDim S128 ![] bcast_S_S128 (constant (F := Ideal) S_ .f32 0x47C35000#32))) shapeCasts_S128_S1x128 := by
    dsimp only [hostOps1]; after_results; rfl
  rw [e, Host1.shapeCast_b_1b_apply, Host1.div_row_apply]
  rfl

theorem after1_var (k : Fin 128) :
    (after hostOps1 Wv (Proc.devRef .tc main_v43) : S1x128.Idx → EReal) (ix2 (0 : Fin 1) k)
      = Cert.Gcn.varOfSums (fun k => (Wv (Proc.devRef .tc main_v31_1) : S1x128.Idx → EReal) (ix2 (0 : Fin 1) k))
          (fun k => (Wv (Proc.devRef .tc main_v31_2) : S1x128.Idx → EReal) (ix2 (0 : Fin 1) k)) k := by
  have e : (after hostOps1 Wv (Proc.devRef .tc main_v43) : S1x128.Idx → EReal)
      = shapeCast S1x128 (subf (F := Ideal) (φ := .f32)
          (Host.divf (F := Ideal) (φ := .f32)
            (shapeCast S128 (Wv (Proc.devRef .tc main_v31_2) : S1x128.Idx → EReal) shapeCasts_S1x128_S128)
            (broadcastInDim S128 ![] bcast_S_S128 (constant (F := Ideal) S_ .f32 0x47C35000#32)))
          (mulf (F := Ideal) (φ := .f32)
            (Host.divf (F := Ideal) (φ := .f32)
              (shapeCast S128 (Wv (Proc.devRef .tc main_v31_1) : S1x128.Idx → EReal) shapeCasts_S1x128_S128)
              (broadcastInDim S128 ![] bcast_S_S128 (constant (F := Ideal) S_ .f32 0x47C35000#32)))
            (Host.divf (F := Ideal) (φ := .f32)
              (shapeCast S128 (Wv (Proc.devRef .tc main_v31_1) : S1x128.Idx → EReal) shapeCasts_S1x128_S128)
              (broadcastInDim S128 ![] bcast_S_S128 (constant (F := Ideal) S_ .f32 0x47C35000#32)))))
          shapeCasts_S128_S1x128 := by
    dsimp only [hostOps1]; after_results; rfl
  rw [e, Host1.shapeCast_b_1b_apply, subf_apply, mulf_apply, Host1.div_row_apply, Host1.div_row_apply]
  rfl

theorem after1_gamma (k : Fin 128) :
    (after hostOps1 Wv (Proc.devRef .tc main_v40) : S1x128.Idx → EReal) (ix2 (0 : Fin 1) k)
      = (Wv (Proc.devRef .tc main_arg4) : S128.Idx → EReal) (ix1 k) := by
  have e : (after hostOps1 Wv (Proc.devRef .tc main_v40) : S1x128.Idx → EReal)
      = shapeCast S1x128 (Wv (Proc.devRef .tc main_arg4) : S128.Idx → EReal) shapeCasts_S128_S1x128 := by
    dsimp only [hostOps1]; after_results; rfl
  rw [e, Host1.shapeCast_b_1b_apply]

theorem after1_beta (k : Fin 128) :
    (after hostOps1 Wv (Proc.devRef .tc main_v41) : S1x128.Idx → EReal) (ix2 (0 : Fin 1) k)
      = (Wv (Proc.devRef .tc main_arg5) : S128.Idx → EReal) (ix1 k) := by
  have e : (after hostOps1 Wv (Proc.devRef .tc main_v41) : S1x128.Idx → EReal)
      = shapeCast S1x128 (Wv (Proc.devRef .tc main_arg5) : S128.Idx → EReal) shapeCasts_S128_S1x128 := by
    dsimp only [hostOps1]; after_results; rfl
  rw [e, Host1.shapeCast_b_1b_apply]

theorem after1_h : after hostOps1 Wv (Proc.devRef .tc main_v31_0) = Wv (Proc.devRef .tc main_v31_0) :=
  StableHlo.after_of_forall_not_mem (b := Proc.devRef .tc main_v31_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.Gcn.KerSide

end
-- ==== Proof.KValue.lean ====
/-
  The idealized kernel's result as a function of the launch memory. Reading backwards through the run: the result
  array is what the second region leaves; that region finds the residual array and the two one-row sums the first
  region left, passed through the host's mean and variance; the first region finds the arguments, the aggregate, the
  in-degree column and the bias row the first host stretch made of the launch memory. Put together, entry `(r, k)` of
  the result is the normalised, scaled, shifted and clamped residual, with the mean and the variance of column `k`
  taken from the column's sum and sum of squares over all rows.
-/
import proofs.«143895_j43920335568926_1_alg».proof.Proof.KRegion0
import proofs.«143895_j43920335568926_1_alg».proof.Proof.KRegion1
import proofs.«143895_j43920335568926_1_alg».proof.Proof.KHost0
import proofs.«143895_j43920335568926_1_alg».proof.Proof.KHost1

noncomputable section

namespace Cert.Gcn.KerSide

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The residual as a function of the launch memory. -/
def Hm (c : Dev nD) : Cert.Gcn.Mat :=
  Cert.Gcn.resid (fun r k => (m ((c : Thread nD τ).loc main_arg0) : S100000x128.Idx → EReal) (ix2 r k))
    (fun r k => aggK (m ((c : Thread nD τ).loc main_arg0)) (m ((c : Thread nD τ).loc main_arg1)) (ix2 r k))
    (fun r => degK (m ((c : Thread nD τ).loc main_arg1)) (ix1 r))
    (fun j k => (m ((c : Thread nD τ).loc main_arg2) : S128x128.Idx → EReal) (ix2 j k))
    (fun k => (m ((c : Thread nD τ).loc main_arg3) : S128.Idx → EReal) (ix1 k))

/-- The first region finds, in its arrays, what the first host stretch made of the launch memory. -/
theorem H0_entry (c : Dev nD) : H0 (V1 m ρ) c = Hm m c := by
  unfold H0 Hm
  have hx : (V1 m ρ c main_arg0 : S100000x128.Idx → EReal) = m ((c : Thread nD τ).loc main_arg0) :=
    after0_arg0 (W0 m ρ c)
  have hw : (V1 m ρ c main_arg2 : S128x128.Idx → EReal) = m ((c : Thread nD τ).loc main_arg2) :=
    after0_arg2 (W0 m ρ c)
  have ha : (V1 m ρ c main_v28 : S100000x128.Idx → EReal)
      = aggK (m ((c : Thread nD τ).loc main_arg0)) (m ((c : Thread nD τ).loc main_arg1)) := after0_agg (W0 m ρ c)
  have hd : ∀ r : Fin 100000, (V1 m ρ c main_v29 : S100000x1.Idx → EReal) (ix2 r (0 : Fin 1))
      = degK (m ((c : Thread nD τ).loc main_arg1)) (ix1 r) := fun r => after0_degcol (W0 m ρ c) r
  have hb : ∀ k : Fin 128, (V1 m ρ c main_v30 : S1x128.Idx → EReal) (ix2 (0 : Fin 1) k)
      = (m ((c : Thread nD τ).loc main_arg3) : S128.Idx → EReal) (ix1 k) := fun k => after0_bias (W0 m ρ c) k
  rw [hx, hw, ha]
  simp only [hd, hb]

/-- A buffer no window of the first region names is, at that region's exit, what the first host stretch left. -/
theorem W2_gamma (c : Dev nD) : W2 m ρ c (Proc.devRef .tc main_arg4) = m ((c : Thread nD τ).loc main_arg4) :=
  (W2_of_ne m ρ c main_arg4 (by decide)).trans (after0_arg4 (W0 m ρ c))
theorem W2_beta (c : Dev nD) : W2 m ρ c (Proc.devRef .tc main_arg5) = m ((c : Thread nD τ).loc main_arg5) :=
  (W2_of_ne m ρ c main_arg5 (by decide)).trans (after0_arg5 (W0 m ρ c))

/-- THE KERNEL'S VALUE: entry `(r, k)` of the result array after the run. -/
theorem result_apply (c : Dev nD) (r : Fin 100000) (k : Fin 128) :
    (W4 (F := Ideal) m ρ c (Proc.devRef .tc main_v44) : S100000x128.Idx → EReal) (ix2 r k)
      = Cert.Gcn.normRelu (Hm m c)
          (Cert.Gcn.meanOf fun k => ∑ r : Fin 100000, Hm m c r k)
          (Cert.Gcn.varOfSums (fun k => ∑ r : Fin 100000, Hm m c r k) (fun k => ∑ r : Fin 100000, Hm m c r k * Hm m c r k))
          (fun k => (m ((c : Thread nD τ).loc main_arg4) : S128.Idx → EReal) (ix1 k))
          (fun k => (m ((c : Thread nD τ).loc main_arg5) : S128.Idx → EReal) (ix1 k)) r k := by
  have e4 : (W4 (F := Ideal) m ρ c (Proc.devRef .tc main_v44) : S100000x128.Idx → EReal)
      = (dat1 (F := Ideal) (V3 m ρ) c).arrAt 5 cfg1.N := W4_arr m ρ c 5
  rw [e4, region1_apply (V3 m ρ) c r k]
  -- the second region's operands, through the host stretch between the regions
  have hh : ∀ r k, (V3 m ρ c main_v31_0 : S100000x128.Idx → EReal) (ix2 r k) = Hm m c r k := fun r k => by
    have e : (V3 m ρ c main_v31_0 : S100000x128.Idx → EReal) = (dat0 (F := Ideal) (V1 m ρ) c).arrAt 5 cfg0.N :=
      (after1_h (W2 m ρ c)).trans (W2_arr m ρ c 5)
    rw [e, region0_h (V1 m ρ) c r k, H0_entry]
  have hs1 : ∀ k, (W2 m ρ c (Proc.devRef .tc main_v31_1) : S1x128.Idx → EReal) (ix2 (0 : Fin 1) k) = ∑ r : Fin 100000, Hm m c r k :=
    fun k => by
      have e : (W2 m ρ c (Proc.devRef .tc main_v31_1) : S1x128.Idx → EReal) = (dat0 (F := Ideal) (V1 m ρ) c).arrAt 6 cfg0.N :=
        W2_arr m ρ c 6
      rw [e, region0_s1 (V1 m ρ) c k, H0_entry]
  have hs2 : ∀ k, (W2 m ρ c (Proc.devRef .tc main_v31_2) : S1x128.Idx → EReal) (ix2 (0 : Fin 1) k)
      = ∑ r : Fin 100000, Hm m c r k * Hm m c r k := fun k => by
      have e : (W2 m ρ c (Proc.devRef .tc main_v31_2) : S1x128.Idx → EReal) = (dat0 (F := Ideal) (V1 m ρ) c).arrAt 7 cfg0.N :=
        W2_arr m ρ c 7
      rw [e, region0_s2 (V1 m ρ) c k, H0_entry]
  have hmean : ∀ k, (V3 m ρ c main_v42 : S1x128.Idx → EReal) (ix2 (0 : Fin 1) k)
      = Cert.Gcn.meanOf (fun k => ∑ r : Fin 100000, Hm m c r k) k := fun k => by
    rw [show (V3 m ρ c main_v42 : S1x128.Idx → EReal) (ix2 (0 : Fin 1) k) = _ from after1_mean (W2 m ρ c) k]
    simp only [hs1]
  have hvar : ∀ k, (V3 m ρ c main_v43 : S1x128.Idx → EReal) (ix2 (0 : Fin 1) k)
      = Cert.Gcn.varOfSums (fun k => ∑ r : Fin 100000, Hm m c r k) (fun k => ∑ r : Fin 100000, Hm m c r k * Hm m c r k) k :=
    fun k => by
      rw [show (V3 m ρ c main_v43 : S1x128.Idx → EReal) (ix2 (0 : Fin 1) k) = _ from after1_var (W2 m ρ c) k]
      simp only [hs1, hs2]
  have hg : ∀ k, (V3 m ρ c main_v40 : S1x128.Idx → EReal) (ix2 (0 : Fin 1) k)
      = (m ((c : Thread nD τ).loc main_arg4) : S128.Idx → EReal) (ix1 k) := fun k => by
    rw [show (V3 m ρ c main_v40 : S1x128.Idx → EReal) (ix2 (0 : Fin 1) k) = _ from after1_gamma (W2 m ρ c) k, W2_gamma]
  have hbt : ∀ k, (V3 m ρ c main_v41 : S1x128.Idx → EReal) (ix2 (0 : Fin 1) k)
      = (m ((c : Thread nD τ).loc main_arg5) : S128.Idx → EReal) (ix1 k) := fun k => by
    rw [show (V3 m ρ c main_v41 : S1x128.Idx → EReal) (ix2 (0 : Fin 1) k) = _ from after1_beta (W2 m ρ c) k, W2_beta]
  simp only [hh, hmean, hvar, hg, hbt]

end Cert.Gcn.KerSide

end
-- ==== Proof.RefRun.lean ====
/-
  The reference program's run. Its @main is a straight line of host operations once the three module-local
  functions it calls (the variance, the select inside it, the clamp at zero) are unfolded at their call sites over
  the calls' buffer records: ninety-three operations in order. Every weakly fair execution terminates with each
  buffer at the operations' fold over the launch contents; the six argument buffers are written by no operation.
-/
import proofs.«143895_j43920335568926_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.ShloMosaic.StableHlo Idealize.SL.Sem

variable {F : FTy → Type} [FloatOps F]

/-- @main's operations in order, the calls unfolded: sixty-eight of its own, the variance's nineteen and the
    select's three inside it (after the row count's conversion), the clamp's three at the end. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x3F800000#32),
    StableHlo.unary main_cst main_v4 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S600000x1 ![0] bcast_S600000_S600000x1_0 : (⟨S600000, .i32⟩ : BufTy).Contents (Elt F) → (⟨S600000x1, .i32⟩ : BufTy).Contents (Elt F)),
    StableHlo.ternary main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x00000000#32),
    StableHlo.unary main_cst_2 main_v10 (broadcastInDim S100000 ![] bcast_S_S100000 : (⟨S_, .f32⟩ : BufTy).Contents (Elt F) → (⟨S100000, .f32⟩ : BufTy).Contents (Elt F)),
    StableHlo.unary main_v3 main_v11 (broadcastInDim S600000x1 ![0] bcast_S600000_S600000x1_0 : (⟨S600000, .i32⟩ : BufTy).Contents (Elt F) → (⟨S600000x1, .i32⟩ : BufTy).Contents (Elt F)),
    StableHlo.ternary main_v10 main_v11 main_v4 main_v12 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_3 (constant S_ .f32 0x3F800000#32),
    StableHlo.unary main_cst_3 main_v13 (broadcastInDim S100000 ![] bcast_S_S100000 : (⟨S_, .f32⟩ : BufTy).Contents (Elt F) → (⟨S100000, .f32⟩ : BufTy).Contents (Elt F)),
    StableHlo.binary main_v12 main_v13 main_v14 (maximumf : (⟨S100000, .f32⟩ : BufTy).Contents (Elt F) → (⟨S100000, .f32⟩ : BufTy).Contents (Elt F) → (⟨S100000, .f32⟩ : BufTy).Contents (Elt F)),
    StableHlo.unary main_v9 main_v15 (Host.rsqrt : (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v17 main_v18 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v19 (broadcastInDim S600000 ![] bcast_S_S600000 : (⟨S_, .i32⟩ : BufTy).Contents (Elt F) → (⟨S600000, .i32⟩ : BufTy).Contents (Elt F)),
    StableHlo.binary main_v1 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v21 (broadcastInDim S600000 ![] bcast_S_S600000 : (⟨S_, .i32⟩ : BufTy).Contents (Elt F) → (⟨S600000, .i32⟩ : BufTy).Contents (Elt F)),
    StableHlo.binary main_v1 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v1 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v18 main_v24 main_v25 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_5 (constant S_ .f32 0x00000000#32),
    StableHlo.unary main_cst_5 main_v26 (broadcastInDim S100000x128 ![] bcast_S_S100000x128 : (⟨S_, .f32⟩ : BufTy).Contents (Elt F) → (⟨S100000x128, .f32⟩ : BufTy).Contents (Elt F)),
    StableHlo.unary main_v3 main_v27 (broadcastInDim S600000x1 ![0] bcast_S600000_S600000x1_0 : (⟨S600000, .i32⟩ : BufTy).Contents (Elt F) → (⟨S600000x1, .i32⟩ : BufTy).Contents (Elt F)),
    StableHlo.ternary main_v26 main_v27 main_v25 main_v28 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v14 main_v29 (Host.rsqrt : (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x128 ![0, 1] bcast_S100000x1_S100000x128_0_1 : (⟨S100000x1, .f32⟩ : BufTy).Contents (Elt F) → (⟨S100000x128, .f32⟩ : BufTy).Contents (Elt F)),
    StableHlo.binary main_v28 main_v31 main_v32 (mulf : (⟨S100000x128, .f32⟩ : BufTy).Contents (Elt F) → (⟨S100000x128, .f32⟩ : BufTy).Contents (Elt F) → (⟨S100000x128, .f32⟩ : BufTy).Contents (Elt F)),
    StableHlo.binary main_v32 main_arg2 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v35 main_v36 (addf : (⟨S100000x128, .f32⟩ : BufTy).Contents (Elt F) → (⟨S100000x128, .f32⟩ : BufTy).Contents (Elt F) → (⟨S100000x128, .f32⟩ : BufTy).Contents (Elt F)),
    StableHlo.binary main_arg0 main_v36 main_v37 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.binary main_v37 main_cst_6 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_7 (constant S_ .f32 0x47C35000#32),
    StableHlo.unary main_cst_7 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (.of main_v37) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v37) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg4 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v52 main_v53 (mulf : (⟨S100000x128, .f32⟩ : BufTy).Contents (Elt F) → (⟨S100000x128, .f32⟩ : BufTy).Contents (Elt F) → (⟨S100000x128, .f32⟩ : BufTy).Contents (Elt F)),
    StableHlo.unary main_arg5 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v55 main_v56 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v56) main_call1.v0 main_call1.v1 maximumf ]

set_option maxRecDepth 16384 in
set_option maxHeartbeats 4000000 in
/-- @main is that straight line: the functions' definitions unfolded at their calls and the records at their
    fields, both sides are one chain of steps once sequencing is reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 16384

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

end Cert.ReferenceIdeal.HandRun

end
-- ==== Proof.RefValue.lean ====
/-
  The reference program's result read at an index, at the ideal values.

  The fold of its ninety-three operations at the result buffer is one closed term of the six arguments' contents
  (by computation). Its front part, kept folded, is the in-degree vector `degR` and the aggregate `aggR` (the
  neighbours' features, scaled by the inverse square root of the out-degree, summed along the edges). Read at
  `(r, k)`, the rest is: the residual `x + ((agg · deg^(-1/2)) W + b)`, each column's mean and biased variance over the
  rows (both from the zero pattern, by the row count as the program spells it), the normalisation, scale, shift and
  the clamp below at zero.
-/
import proofs.«143895_j43920335568926_1_alg».proof.Proof.RefRun
import proofs.«143895_j43920335568926_1_alg».proof.Proof.Spec
import proofs.«143895_j43920335568926_1_alg».proof.Proof.LibColumns
import Idealize.ShloMosaic.Lib.IdealHost
import Idealize.ShloMosaic.Lib.KernelVsHost
import Idealize.ShloMosaic.Lib.StackMember

noncomputable section

namespace Cert.Gcn.RefSide

open Cert.ReferenceIdeal Cert.ReferenceIdeal.Gen Idealize.ShloMosaic Idealize.ShloMosaic.TcCoe Idealize.ShloMosaic.StableHlo
  Idealize.SL.Sem Idealize.ShloMosaic.ValueIdx

/-! ## The result as one term -/

/-- Each edge's source node: row 0 of the edge table. -/
def srcR (e : IVec S2x600000 32) : IVec S600000 32 :=
  shapeCast S600000 (extractStridedSlice S1x600000 ![0, 0] e slices_S2x600000_S1x600000_0_0) shapeCasts_S1x600000_S600000

/-- Each edge's destination node: row 1 of the edge table. -/
def dstR (e : IVec S2x600000 32) : IVec S600000 32 :=
  shapeCast S600000 (extractStridedSlice S1x600000 ![1, 0] e slices_S2x600000_S1x600000_1_0) shapeCasts_S1x600000_S600000

/-- The out-degrees, at least one: a one added at each edge's source, from zero, then the maximum with one. -/
def degOutR (e : IVec S2x600000 32) : S100000.Idx → EReal :=
  maximumf (F := Ideal)
    (Host.scatterAdd scatter_S100000_S600000x1_S600000_n_0_0_1
      (broadcastInDim S100000 ![] bcast_S_S100000 (constant (F := Ideal) S_ .f32 0x00000000#32))
      (broadcastInDim S600000x1 ![0] bcast_S600000_S600000x1_0 (srcR e))
      (broadcastInDim S600000 ![] bcast_S_S600000 (constant (F := Ideal) S_ .f32 0x3F800000#32)))
    (broadcastInDim S100000 ![] bcast_S_S100000 (constant (F := Ideal) S_ .f32 0x3F800000#32))

/-- The in-degrees, at least one: a one added at each edge's destination, from zero, then the maximum with one. -/
def degR (e : IVec S2x600000 32) : S100000.Idx → EReal :=
  maximumf (F := Ideal)
    (Host.scatterAdd scatter_S100000_S600000x1_S600000_n_0_0_1
      (broadcastInDim S100000 ![] bcast_S_S100000 (constant (F := Ideal) S_ .f32 0x00000000#32))
      (broadcastInDim S600000x1 ![0] bcast_S600000_S600000x1_0 (dstR e))
      (broadcastInDim S600000 ![] bcast_S_S600000 (constant (F := Ideal) S_ .f32 0x3F800000#32)))
    (broadcastInDim S100000 ![] bcast_S_S100000 (constant (F := Ideal) S_ .f32 0x3F800000#32))

/-- The aggregate: each node's features scaled by the inverse square root of its out-degree, gathered at the edges'
    sources (a negative index wrapped by the row count), added at the edges' destinations, from zero. -/
def aggR (x : S100000x128.Idx → EReal) (e : IVec S2x600000 32) : S100000x128.Idx → EReal :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 (dstR e))
    (Host.gather gather_S100000x128_S600000x1_S600000x128_1_0_n_n_0_1_1128
      (mulf (F := Ideal) (φ := .f32) x
        (broadcastInDim S100000x128 ![0, 1] bcast_S100000x1_S100000x128_0_1
          (broadcastInDim S100000x1 ![0] bcast_S100000_S100000x1_0 (Host.rsqrt (F := Ideal) (φ := .f32) (degOutR e)))))
      (broadcastInDim S600000x1 ![0] bcast_S600000_S600000x1_0
        (select (cmpi .slt (srcR e) (broadcastInDim S600000 ![] bcast_S_S600000 (constantI S_ 32 0#32)))
          (addi (srcR e) (broadcastInDim S600000 ![] bcast_S_S600000 (constantI S_ 32 100000#32))) (srcR e))))

/-- The residual features in the common vocabulary: from the argument buffers' contents, the aggregate and the
    in-degrees kept as the program's own terms. -/
def H (V : Valuation τ sig (Elt Ideal)) : Cert.Gcn.Mat :=
  Cert.Gcn.resid (fun r k => (V (main_arg0 : DevRef τ sig) : S100000x128.Idx → EReal) (ix2 r k))
    (fun r k => aggR (V (main_arg0 : DevRef τ sig)) (V (main_arg1 : DevRef τ sig)) (ix2 r k))
    (fun r => degR (V (main_arg1 : DevRef τ sig)) (ix1 r))
    (fun k c => (V (main_arg2 : DevRef τ sig) : S128x128.Idx → EReal) (ix2 k c))
    (fun c => (V (main_arg3 : DevRef τ sig) : S128.Idx → EReal) (ix1 c))

/-- The residual features as the program computes them. -/
def hR (x : S100000x128.Idx → EReal) (e : IVec S2x600000 32) (W : S128x128.Idx → EReal) (b : S128.Idx → EReal) :
    S100000x128.Idx → EReal :=
  addf (F := Ideal) (φ := .f32) x
    (addf (F := Ideal) (φ := .f32)
      (Host.dotGeneral (F := Ideal) (φ₁ := .f32) (φ₂ := .f32) dot_S100000x128_S128x128_S100000x128_1_0_0_1_n_n none
        (mulf (F := Ideal) (φ := .f32) (aggR x e)
          (broadcastInDim S100000x128 ![0, 1] bcast_S100000x1_S100000x128_0_1
            (broadcastInDim S100000x1 ![0] bcast_S100000_S100000x1_0 (Host.rsqrt (F := Ideal) (φ := .f32) (degR e)))))
        W)
      (broadcastInDim S100000x128 ![0, 1] bcast_S1x128_S100000x128_0_1 (broadcastInDim S1x128 ![1] bcast_S128_S1x128_1 b)))

/-- A column's sum over the rows, from the zero pattern. -/
def colSumsR (h : S100000x128.Idx → EReal) : S128.Idx → EReal :=
  Host.reduceAdd (F := Ideal) (φ := .f32) h (constant (F := Ideal) S_ .f32 0x00000000#32) reducesTo_S100000x128_S128_d0 h_S_

/-- A column's mean: its sum by the row count. -/
def meanR (h : S100000x128.Idx → EReal) : S128.Idx → EReal :=
  Host.divf (F := Ideal) (φ := .f32) (colSumsR h) (broadcastInDim S128 ![] bcast_S_S128 (constant (F := Ideal) S_ .f32 0x47C35000#32))

/-- The variance's divisor: the row count less the integer zero converted. -/
def countR : S_.Idx → EReal :=
  subf (F := Ideal) (φ := .f32) (constant (F := Ideal) S_ .f32 0x47C35000#32) (sitofp .f32 (constantI S_ 32 0#32))

/-- The deviations from the column means (the mean taken again, on a one-row array). -/
def devR (h : S100000x128.Idx → EReal) : S100000x128.Idx → EReal :=
  subf (F := Ideal) (φ := .f32) h
    (broadcastInDim S100000x128 ![0, 1] bcast_S1x128_S100000x128_0_1
      (Host.divf (F := Ideal) (φ := .f32) (broadcastInDim S1x128 ![1] bcast_S128_S1x128_1 (colSumsR h))
        (broadcastInDim S1x128 ![] bcast_S_S1x128 (constant (F := Ideal) S_ .f32 0x47C35000#32))))

/-- A column's variance: the squared deviations summed from the zero pattern, by the divisor where that is positive
    (else the not-a-number pattern). -/
def varR (h : S100000x128.Idx → EReal) : S128.Idx → EReal :=
  select (broadcastInDim S128 ![] bcast_S_S128 (cmpf .ogt countR (constant (F := Ideal) S_ .f32 0x00000000#32)))
    (Host.divf (F := Ideal) (φ := .f32)
      (Host.reduceAdd (F := Ideal) (φ := .f32) (mulf (F := Ideal) (φ := .f32) (devR h) (devR h)) (constant (F := Ideal) S_ .f32 0x00000000#32)
        reducesTo_S100000x128_S128_d0 h_S_)
      (broadcastInDim S128 ![] bcast_S_S128 countR))
    (broadcastInDim S128 ![] bcast_S_S128 (id (constant (F := Ideal) S_ .f32 0x7FC00000#32)))

/-- Normalise, scale, shift, clamp below at zero. -/
def outR (h : S100000x128.Idx → EReal) (gam bet : S128.Idx → EReal) : S100000x128.Idx → EReal :=
  maximumf (F := Ideal) (φ := .f32)
    (addf (F := Ideal) (φ := .f32)
      (mulf (F := Ideal) (φ := .f32)
        (mulf (F := Ideal) (φ := .f32)
          (subf (F := Ideal) (φ := .f32) h
            (broadcastInDim S100000x128 ![0, 1] bcast_S1x128_S100000x128_0_1
              (broadcastInDim S1x128 ![1] bcast_S128_S1x128_1 (meanR h))))
          (broadcastInDim S100000x128 ![0, 1] bcast_S1x128_S100000x128_0_1
            (broadcastInDim S1x128 ![1] bcast_S128_S1x128_1
              (Host.rsqrt (F := Ideal) (φ := .f32)
                (addf (F := Ideal) (φ := .f32) (varR h)
                  (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 gam)))
      (broadcastInDim S100000x128 ![0, 1] bcast_S1x128_S100000x128_0_1 (broadcastInDim S1x128 ![1] bcast_S128_S1x128_1 bet)))
    (broadcastInDim S100000x128 ![] bcast_S_S100000x128 (constant (F := Ideal) S_ .f32 0x00000000#32))

/-- The result as a term of the six arguments' contents. -/
def refOut (x : S100000x128.Idx → EReal) (e : IVec S2x600000 32) (W : S128x128.Idx → EReal) (b gam bet : S128.Idx → EReal) :
    S100000x128.Idx → EReal :=
  outR (hR x e W b) gam bet

/-! ## The same term at any float values

The fold is computed once for any float values, where the arithmetic is opaque and only the buffers' bookkeeping
reduces; the definitions below are the ones above, letter for letter, with the float values a parameter. -/

section AnyValues
variable {F : FTy → Type} [FloatOps F]

def degOutG (e : IVec S2x600000 32) : S100000.Idx → F .f32 :=
  maximumf (F := F)
    (Host.scatterAdd scatter_S100000_S600000x1_S600000_n_0_0_1
      (broadcastInDim S100000 ![] bcast_S_S100000 (constant (F := F) S_ .f32 0x00000000#32))
      (broadcastInDim S600000x1 ![0] bcast_S600000_S600000x1_0 (srcR e))
      (broadcastInDim S600000 ![] bcast_S_S600000 (constant (F := F) S_ .f32 0x3F800000#32)))
    (broadcastInDim S100000 ![] bcast_S_S100000 (constant (F := F) S_ .f32 0x3F800000#32))

def degG (e : IVec S2x600000 32) : S100000.Idx → F .f32 :=
  maximumf (F := F)
    (Host.scatterAdd scatter_S100000_S600000x1_S600000_n_0_0_1
      (broadcastInDim S100000 ![] bcast_S_S100000 (constant (F := F) S_ .f32 0x00000000#32))
      (broadcastInDim S600000x1 ![0] bcast_S600000_S600000x1_0 (dstR e))
      (broadcastInDim S600000 ![] bcast_S_S600000 (constant (F := F) S_ .f32 0x3F800000#32)))
    (broadcastInDim S100000 ![] bcast_S_S100000 (constant (F := F) S_ .f32 0x3F800000#32))

def aggG (x : S100000x128.Idx → F .f32) (e : IVec S2x600000 32) : S100000x128.Idx → F .f32 :=
  Host.scatterAdd (F := F) scatter_S100000x128_S600000x1_S600000x128_1_0_0_1
    (broadcastInDim S100000x128 ![] bcast_S_S100000x128 (constant (F := F) S_ .f32 0x00000000#32))
    (broadcastInDim S600000x1 ![0] bcast_S600000_S600000x1_0 (dstR e))
    (Host.gather gather_S100000x128_S600000x1_S600000x128_1_0_n_n_0_1_1128
      (mulf (F := F) (φ := .f32) x
        (broadcastInDim S100000x128 ![0, 1] bcast_S100000x1_S100000x128_0_1
          (broadcastInDim S100000x1 ![0] bcast_S100000_S100000x1_0 (Host.rsqrt (F := F) (φ := .f32) (degOutG e)))))
      (broadcastInDim S600000x1 ![0] bcast_S600000_S600000x1_0
        (select (cmpi .slt (srcR e) (broadcastInDim S600000 ![] bcast_S_S600000 (constantI S_ 32 0#32)))
          (addi (srcR e) (broadcastInDim S600000 ![] bcast_S_S600000 (constantI S_ 32 100000#32))) (srcR e))))

def hG (x : S100000x128.Idx → F .f32) (e : IVec S2x600000 32) (W : S128x128.Idx → F .f32) (b : S128.Idx → F .f32) :
    S100000x128.Idx → F .f32 :=
  addf (F := F) (φ := .f32) x
    (addf (F := F) (φ := .f32)
      (Host.dotGeneral (F := F) (φ₁ := .f32) (φ₂ := .f32) dot_S100000x128_S128x128_S100000x128_1_0_0_1_n_n none
        (mulf (F := F) (φ := .f32) (aggG x e)
          (broadcastInDim S100000x128 ![0, 1] bcast_S100000x1_S100000x128_0_1
            (broadcastInDim S100000x1 ![0] bcast_S100000_S100000x1_0 (Host.rsqrt (F := F) (φ := .f32) (degG e)))))
        W)
      (broadcastInDim S100000x128 ![0, 1] bcast_S1x128_S100000x128_0_1 (broadcastInDim S1x128 ![1] bcast_S128_S1x128_1 b)))

def colSumsG (h : S100000x128.Idx → F .f32) : S128.Idx → F .f32 :=
  Host.reduceAdd (F := F) (φ := .f32) h (constant (F := F) S_ .f32 0x00000000#32) reducesTo_S100000x128_S128_d0 h_S_

def meanG (h : S100000x128.Idx → F .f32) : S128.Idx → F .f32 :=
  Host.divf (F := F) (φ := .f32) (colSumsG h) (broadcastInDim S128 ![] bcast_S_S128 (constant (F := F) S_ .f32 0x47C35000#32))

def countG : S_.Idx → F .f32 :=
  subf (F := F) (φ := .f32) (constant (F := F) S_ .f32 0x47C35000#32) (sitofp .f32 (constantI S_ 32 0#32))

def devG (h : S100000x128.Idx → F .f32) : S100000x128.Idx → F .f32 :=
  subf (F := F) (φ := .f32) h
    (broadcastInDim S100000x128 ![0, 1] bcast_S1x128_S100000x128_0_1
      (Host.divf (F := F) (φ := .f32) (broadcastInDim S1x128 ![1] bcast_S128_S1x128_1 (colSumsG h))
        (broadcastInDim S1x128 ![] bcast_S_S1x128 (constant (F := F) S_ .f32 0x47C35000#32))))

def varG (h : S100000x128.Idx → F .f32) : S128.Idx → F .f32 :=
  select (broadcastInDim S128 ![] bcast_S_S128 (cmpf .ogt countG (constant (F := F) S_ .f32 0x00000000#32)))
    (Host.divf (F := F) (φ := .f32)
      (Host.reduceAdd (F := F) (φ := .f32) (mulf (F := F) (φ := .f32) (devG h) (devG h)) (constant (F := F) S_ .f32 0x00000000#32)
        reducesTo_S100000x128_S128_d0 h_S_)
      (broadcastInDim S128 ![] bcast_S_S128 countG))
    (broadcastInDim S128 ![] bcast_S_S128 (id (constant (F := F) S_ .f32 0x7FC00000#32)))

def outG (h : S100000x128.Idx → F .f32) (gam bet : S128.Idx → F .f32) : S100000x128.Idx → F .f32 :=
  maximumf (F := F) (φ := .f32)
    (addf (F := F) (φ := .f32)
      (mulf (F := F) (φ := .f32)
        (mulf (F := F) (φ := .f32)
          (subf (F := F) (φ := .f32) h
            (broadcastInDim S100000x128 ![0, 1] bcast_S1x128_S100000x128_0_1
              (broadcastInDim S1x128 ![1] bcast_S128_S1x128_1 (meanG h))))
          (broadcastInDim S100000x128 ![0, 1] bcast_S1x128_S100000x128_0_1
            (broadcastInDim S1x128 ![1] bcast_S128_S1x128_1
              (Host.rsqrt (F := F) (φ := .f32)
                (addf (F := F) (φ := .f32) (varG h)
                  (broadcastInDim S128 ![] bcast_S_S128 (constant (F := F) S_ .f32 0x3727C5AC#32)))))))
        (broadcastInDim S100000x128 ![0, 1] bcast_S1x128_S100000x128_0_1 (broadcastInDim S1x128 ![1] bcast_S128_S1x128_1 gam)))
      (broadcastInDim S100000x128 ![0, 1] bcast_S1x128_S100000x128_0_1 (broadcastInDim S1x128 ![1] bcast_S128_S1x128_1 bet)))
    (broadcastInDim S100000x128 ![] bcast_S_S100000x128 (constant (F := F) S_ .f32 0x00000000#32))

def refOutG (x : S100000x128.Idx → F .f32) (e : IVec S2x600000 32) (W : S128x128.Idx → F .f32) (b gam bet : S128.Idx → F .f32) :
    S100000x128.Idx → F .f32 :=
  outG (hG x e W b) gam bet

attribute [local irreducible] Host.reduceAdd Host.scatterAdd Host.gather Host.rsqrt Host.divf in
set_option maxRecDepth 16384 in
set_option maxHeartbeats 4000000 in
/-- The fold at the result buffer is that term, by computation: the fold unrolled, each operation's result decides
    whether the buffer read is the one it writes, the typed references' casts are the identity at literal references.
    The sums, the scatter and the gather stay folded meanwhile. -/
theorem out_eqG (V : Valuation τ sig (Elt F)) :
    after HandRun.ops V (main_v57 : DevRef τ sig)
      = refOutG (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

end AnyValues

/-- At the ideal values the general term is the one above: the same definitions. -/
theorem refOutG_ideal (x : S100000x128.Idx → EReal) (e : IVec S2x600000 32) (W : S128x128.Idx → EReal)
    (b gam bet : S128.Idx → EReal) : refOutG (F := Ideal) x e W b gam bet = refOut x e W b gam bet := rfl

/-- The fold at the result buffer, at the ideal values. -/
theorem out_eq (V : Valuation τ sig (Elt Ideal)) :
    after HandRun.ops V (main_v57 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) :=
  (out_eqG V).trans (refOutG_ideal _ _ _ _ _ _)

/-! ## Layout operations read at an index -/

section Reads
variable {α : Type}

/-- A vector `[a]` laid down the one column of `[a, 1]` reads, at `(r, ·)`, its entry `r`. -/
theorem bcast_vec_col_apply {a : ℕ} (h : (⟨1, ![a]⟩ : Shape).BroadcastsInDim ⟨2, ![a, 1]⟩ ![0])
    (v : (⟨1, ![a]⟩ : Shape).Idx → α) (r : Fin a) (u : Fin 1) :
    broadcastInDim ⟨2, ![a, 1]⟩ ![0] h v (ix2 r u) = v (ix1 r) := by
  refine broadcastInDim_apply ![0] h v (ix2 r u) (ix1 r) fun ax => ?_
  match ax with
  | ⟨0, _⟩ =>
    show r.val = if a = 1 then 0 else r.val
    split
    · have := r.isLt; omega
    · rfl

/-- A vector `[b]` laid along the one row of `[1, b]` reads, at `(·, c)`, its entry `c`. -/
theorem bcast_vec_row_apply {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A column `[a, 1]` laid across the columns of `[a, b]` reads, at `(r, c)`, the column's entry of row `r`. -/
theorem bcast_col_apply {a b : ℕ} (h : (⟨2, ![a, 1]⟩ : Shape).BroadcastsInDim ⟨2, ![a, b]⟩ ![0, 1])
    (v : (⟨2, ![a, 1]⟩ : Shape).Idx → α) (r : Fin a) (c : Fin b) :
    broadcastInDim ⟨2, ![a, b]⟩ ![0, 1] h v (ix2 r c) = v (ix2 r (0 : Fin 1)) := by
  refine broadcastInDim_apply ![0, 1] h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    simp

end Reads

/-- The host's sum down the rows of a `[100000, 128]` array from an initial scalar, read at column `c`: the initial
    value plus the sum over the 100000 rows. -/
theorem hostColSum_apply (x : S100000x128.Idx → EReal) (init : S_.Idx → EReal) (c : Fin 128) :
    Host.reduceAdd (F := Ideal) (φ := .f32) x init reducesTo_S100000x128_S128_d0 h_S_ (ix1 c)
      = init ix0 + ∑ r : Fin 100000, x (ix2 r c) := by
  have hr : S100000x128.Reduces [0] S128 := by decide
  rw [hostReduceAdd_apply, Ideal.hostReduceAdd_single reducesTo_S100000x128_S128_d0 hr]
  exact congrArg₂ (· + ·) (congrArg init (eq_ix0 _))
    (Finset.sum_congr rfl fun k _ => congrArg x (Cert.LibColumns.lift_axis0 hr c k))

/-- The inverse square root on the host, read at an index. -/
theorem hostRsqrt_apply {s : Shape} (v : s.Idx → EReal) (i : s.Idx) :
    Host.rsqrt (F := Ideal) (φ := .f32) v i = Ideal.rsqrt (v i) := rfl

attribute [local irreducible] aggR degR degOutR Host.scatterAdd Host.gather

/-! ## The stages read at an index -/

/-- The residual at `(r, c)`. -/
theorem hR_apply (x : S100000x128.Idx → EReal) (e : IVec S2x600000 32) (W : S128x128.Idx → EReal) (b : S128.Idx → EReal)
    (r : Fin 100000) (c : Fin 128) :
    hR x e W b (ix2 r c)
      = Cert.Gcn.resid (fun r k => x (ix2 r k)) (fun r k => aggR x e (ix2 r k)) (fun r => degR e (ix1 r))
          (fun k c => W (ix2 k c)) (fun c => b (ix1 c)) r c := by
  unfold hR
  rw [addf_apply, addf_apply, broadcastInDim_oneRow_apply, bcast_vec_row_apply]
  have hd : dot_S100000x128_S128x128_S100000x128_1_0_0_1_n_n = DotDims.plain 100000 128 128 := rfl
  rw [hd, StackMember.dotGeneral_plain_apply]
  have hs : ∀ k : Fin 128,
      mulf (F := Ideal) (φ := .f32) (aggR x e)
          (broadcastInDim S100000x128 ![0, 1] bcast_S100000x1_S100000x128_0_1
            (broadcastInDim S100000x1 ![0] bcast_S100000_S100000x1_0 (Host.rsqrt (F := Ideal) (φ := .f32) (degR e))))
          (ix2 r k)
        = aggR x e (ix2 r k) * Ideal.rsqrt (degR e (ix1 r)) := fun k => by
    rw [mulf_apply, bcast_col_apply, bcast_vec_col_apply, hostRsqrt_apply]
  rw [Finset.sum_congr rfl fun k _ => congrArg (· * W (ix2 k c)) (hs k)]
  unfold Cert.Gcn.resid
  exact rfl

/-- A column's sum at `c`. -/
theorem colSumsR_apply (h : S100000x128.Idx → EReal) (c : Fin 128) :
    colSumsR h (ix1 c) = Cert.Gcn.zeroF + ∑ r : Fin 100000, h (ix2 r c) := by
  unfold colSumsR
  rw [hostColSum_apply, constant_apply, Cert.Gcn.zeroF]

/-- A column's mean at `c`. -/
theorem meanR_apply (h : S100000x128.Idx → EReal) (c : Fin 128) :
    meanR h (ix1 c) = Cert.Gcn.meanAll (fun r k => h (ix2 r k)) c := by
  unfold meanR
  rw [hostDivf_apply, colSumsR_apply, broadcastInDim_scalar_apply, constant_apply]
  unfold Cert.Gcn.meanAll Cert.Gcn.nF
  exact rfl

/-- The deviation at `(r, c)`. -/
theorem devR_apply (h : S100000x128.Idx → EReal) (r : Fin 100000) (c : Fin 128) :
    devR h (ix2 r c) = h (ix2 r c) - Cert.Gcn.meanAll (fun r k => h (ix2 r k)) c := by
  unfold devR
  rw [subf_apply, broadcastInDim_oneRow_apply, hostDivf_apply, bcast_vec_row_apply, colSumsR_apply,
    broadcastInDim_scalar_apply, constant_apply]
  unfold Cert.Gcn.meanAll Cert.Gcn.nF
  exact rfl

/-- The variance's divisor. -/
theorem countR_apply : countR ix0 = Cert.Gcn.nF - (((0#32 : BitVec 32).toInt : ℝ) : EReal) := by
  unfold countR Cert.Gcn.nF
  exact rfl

/-- The divisor is positive. -/
theorem count_pos : Cert.Gcn.zeroF < Cert.Gcn.nF - (((0#32 : BitVec 32).toInt : ℝ) : EReal) := by
  have h0 : ((0#32 : BitVec 32).toInt : ℝ) = 0 := by simp
  rw [Cert.Gcn.zeroF_eq, Cert.Gcn.nF_eq, h0, ← EReal.coe_sub, ← EReal.coe_zero, EReal.coe_lt_coe_iff]
  norm_num

/-- A column's variance at `c`. -/
theorem varR_apply (h : S100000x128.Idx → EReal) (c : Fin 128) :
    varR h (ix1 c) = Cert.Gcn.varAll (fun r k => h (ix2 r k)) c := by
  unfold varR
  rw [select_apply, broadcastInDim_scalar_apply bcast_S_S128 (cmpf .ogt countR (constant (F := Ideal) S_ .f32 0x00000000#32)) (ix1 c), cmpf_apply]
  have hp : Ideal.ofBits .f32 0x00000000#32 < Cert.Gcn.nF - (((0#32 : BitVec 32).toInt : ℝ) : EReal) := count_pos
  have hc : FloatOps.cmpf (F := Ideal) (φ := .f32) .ogt (countR ix0) ((constant (F := Ideal) S_ .f32 0x00000000#32) ix0) = 1#1 := by
    rw [Ideal.cmpf_def, constant_apply, countR_apply]
    show BitVec.ofBool (decide (_ < _)) = 1#1
    rw [decide_eq_true hp]
    rfl
  rw [hc, select_one, hostDivf_apply, hostColSum_apply, broadcastInDim_scalar_apply, countR_apply, constant_apply]
  have hs : ∀ r : Fin 100000, mulf (F := Ideal) (φ := .f32) (devR h) (devR h) (ix2 r c)
      = (h (ix2 r c) - Cert.Gcn.meanAll (fun r k => h (ix2 r k)) c) * (h (ix2 r c) - Cert.Gcn.meanAll (fun r k => h (ix2 r k)) c) :=
    fun r => by rw [mulf_apply, devR_apply]
  rw [Finset.sum_congr rfl fun r _ => hs r]
  unfold Cert.Gcn.varAll Cert.Gcn.zeroF
  exact rfl

/-- The result term at `(r, k)`. -/
theorem outR_apply (h : S100000x128.Idx → EReal) (gam bet : S128.Idx → EReal) (r : Fin 100000) (k : Fin 128) :
    outR h gam bet (ix2 r k)
      = Cert.Gcn.normRelu (fun r k => h (ix2 r k)) (Cert.Gcn.meanAll (fun r k => h (ix2 r k)))
          (Cert.Gcn.varAll (fun r k => h (ix2 r k))) (fun c => gam (ix1 c)) (fun c => bet (ix1 c)) r k := by
  unfold outR
  rw [maximumf_apply, addf_apply, mulf_apply, mulf_apply, subf_apply]
  rw [broadcastInDim_oneRow_apply, bcast_vec_row_apply, meanR_apply]
  rw [broadcastInDim_oneRow_apply, bcast_vec_row_apply, hostRsqrt_apply, addf_apply, varR_apply]
  rw [broadcastInDim_oneRow_apply, bcast_vec_row_apply, broadcastInDim_oneRow_apply, bcast_vec_row_apply]
  rw [broadcastInDim_scalar_apply, constant_apply, broadcastInDim_scalar_apply, constant_apply]
  unfold Cert.Gcn.normRelu Cert.Gcn.epsF Cert.Gcn.zeroF
  exact rfl

/-! ## The result read at an index -/

/-- The reference's result at `(r, k)`: the residual features normalised by their column means and variances over all
    rows, scaled, shifted and clamped below at zero. -/
theorem result_apply (V : Valuation τ sig (Elt Ideal)) (r : Fin 100000) (k : Fin 128) :
    (after HandRun.ops V (main_v57 : DevRef τ sig) : S100000x128.Idx → EReal) (ix2 r k)
      = Cert.Gcn.normRelu (H V) (Cert.Gcn.meanAll (H V)) (Cert.Gcn.varAll (H V))
          (fun c => (V (main_arg4 : DevRef τ sig) : S128.Idx → EReal) (ix1 c))
          (fun c => (V (main_arg5 : DevRef τ sig) : S128.Idx → EReal) (ix1 c)) r k := by
  rw [out_eq]
  unfold refOut
  rw [outR_apply]
  have hH : (fun (r : Fin 100000) (k : Fin 128) =>
      hR (V (main_arg0 : DevRef τ sig)) (V (main_arg1 : DevRef τ sig)) (V (main_arg2 : DevRef τ sig))
        (V (main_arg3 : DevRef τ sig)) (ix2 r k)) = H V := by
    funext r k
    unfold H
    exact hR_apply _ _ _ _ r k
  rw [hH]

end Cert.Gcn.RefSide

end
-- ==== Proof.FrontEq.lean ====
/-
  The front part of the two programs is one computation: the in-degrees and the aggregate, as the reference program
  composes them over its own shape records, are the kernel-side program's. The two families of records are
  definitions with the same bodies, and every shape fact they carry is a proof of a proposition, so each equation holds
  by unfolding both sides.
-/
import proofs.«143895_j43920335568926_1_alg».proof.Proof.RefValue
import proofs.«143895_j43920335568926_1_alg».proof.Proof.KHost0

noncomputable section

namespace Cert.Gcn.FrontEq

open Idealize.ShloMosaic

attribute [local irreducible] Host.scatterAdd Host.gather in
/-- The reference's in-degrees are the kernel side's. -/
theorem degR_eq (e : Cert.KernelIdeal.S2x600000.Idx → BitVec 32) :
    Cert.Gcn.RefSide.degR e = Cert.Gcn.KerSide.degK e := rfl

attribute [local irreducible] Host.scatterAdd Host.gather in
/-- The reference's aggregate is the kernel side's. -/
theorem aggR_eq (x : Cert.KernelIdeal.S100000x128.Idx → EReal) (e : Cert.KernelIdeal.S2x600000.Idx → BitVec 32) :
    Cert.Gcn.RefSide.aggR x e = Cert.Gcn.KerSide.aggK x e := rfl

end Cert.Gcn.FrontEq

end
-- ==== Proof.Finite.lean ====
/-
  From the stated precondition to the fact it encodes: every entry of every float input is a real number.

  The precondition compares, entry by entry, the absolute value of each float input with the pattern of plus infinity
  under "less than", takes the conjunction over each array and the conjunction of the five results. An extended real
  whose absolute value is below plus infinity is neither infinity, so it is a real number.
-/
import proofs.«143895_j43920335568926_1_alg».proof.Proof.Gen.Pre_finite_inputs
import proofs.«143895_j43920335568926_1_alg».proof.Proof.Spec
import Idealize.ShloMosaic.Lib.ReduceAll
import Idealize.ShloMosaic.Lib.ValueIdx
import Idealize.ShloMosaic.PureOps.Ideal

noncomputable section

namespace Cert.Gcn.Finite

open Idealize.ShloMosaic Cert.Pre_finite_inputs

/-- The pattern the precondition compares against denotes plus infinity. -/
theorem ofBits_inf : Ideal.ofBits .f32 0x7F800000#32 = ⊤ := by
  simp [Ideal.ofBits, Ideal.ieee]

/-- An extended real whose absolute value is strictly below plus infinity is a real number. -/
theorem isReal_of_abs_lt (v : EReal)
    (h : Ideal.cmp .olt (max v (-v)) (Ideal.ofBits .f32 0x7F800000#32) = 1#1) : Cert.Gcn.IsReal v := by
  rw [ofBits_inf] at h
  induction v using EReal.rec with
  | bot => simp [Ideal.cmp] at h
  | top => simp [Ideal.cmp] at h
  | coe a => exact ⟨a, rfl⟩

/-- The rank-zero shape has a single index. -/
instance : Subsingleton S_.Idx := ⟨fun a b => funext fun d => d.elim0⟩

/-- One conjunct of the precondition, read back: if the conjunction over an array of "the absolute value is below plus
    infinity" holds, every entry of the array is a real number. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1)
    (e : Host.reduce IntOp.andi
      (cmpf .olt (Host.absf x) (broadcastInDim s ![] hb (constant (F := Ideal) S_ .f32 0x7F800000#32))) init hr hu
        ValueIdx.ix0 = 1#1) (i : s.Idx) : Cert.Gcn.IsReal (x i) := by
  have hi := Host.reduce_andi_all _ init hr hu ValueIdx.ix0 e i
  exact isReal_of_abs_lt (x i) hi

/-- The precondition holds only if every entry of every float input is a real number. -/
theorem inputs_real (x : S100000x128.Idx → EReal) (e : S2x600000.Idx → BitVec 32) (W : S128x128.Idx → EReal)
    (b g bt : S128.Idx → EReal)
    (h : Cert.Pre_finite_inputs.fn (F := Ideal) x e W b g bt = fun _ => 1#1) :
    (∀ i, Cert.Gcn.IsReal (x i)) ∧ (∀ i, Cert.Gcn.IsReal (W i)) ∧ (∀ i, Cert.Gcn.IsReal (b i)) ∧
      (∀ i, Cert.Gcn.IsReal (g i)) ∧ (∀ i, Cert.Gcn.IsReal (bt i)) := by
  have h0 := congrFun h ValueIdx.ix0
  dsimp only [Cert.Pre_finite_inputs.fn, Cert.Pre_finite_inputs.fn_part1] at h0
  -- the five conjuncts, outermost last
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_real _ _ _ x _ h1, all_real _ _ _ W _ h2, all_real _ _ _ b _ h3, all_real _ _ _ g _ h4,
    all_real _ _ _ bt _ h5⟩

end Cert.Gcn.Finite

end
-- ==== Proof.lean ====
/-
  The certificate of a graph-convolution block with batch normalisation. Both programs compute, from node features
  `x`, an edge list, a weight matrix and three feature vectors: the in- and out-degrees of every node (clamped below at
  one), the neighbours' features scaled by `deg_out^(-1/2)` and summed along the edges, then the residual
  `h = x + ((agg · deg_in^(-1/2)) W + b)`, and finally `max (((h - mean) · (var + ε)^(-1/2)) · gam + bet) 0` with the
  mean and the biased variance of each column of `h` over the 100000 rows.

  The kernel program does the dense part in two passes over ten blocks of 10000 rows: the first writes `h` and keeps a
  running sum and a running sum of squares of each column, the host takes `mean = s1 / n` and
  `var = s2 / n - mean · mean`, the second normalises. The reference sums each column at once and takes the variance
  as the mean of the squared deviations. Over the extended reals the two agree where every entry of `h` is a real
  number — which the precondition gives: every float input is finite, a degree is a count clamped at one, and sums and
  products of reals are real. The degree counts and the sum along the edges are the same operations in both programs
  and are carried as two functions of the inputs that are never opened, except to see that their values are real.

  The three frames: the kernel's two are the generated frame certificates; the reference's is its run with the result
  forgotten. No rewrite was applied when the kernel was idealised, so that claim is `True`.
-/
import proofs.«143895_j43920335568926_1_alg».proof.Defs
import proofs.«143895_j43920335568926_1_alg».proof.Proof.Gen.Kernel.Frame
import proofs.«143895_j43920335568926_1_alg».proof.Proof.Gen.KernelIdeal.Frame
import proofs.«143895_j43920335568926_1_alg».proof.Proof.Gen.Pre_finite_inputs
import proofs.«143895_j43920335568926_1_alg».proof.Proof.KRun
import proofs.«143895_j43920335568926_1_alg».proof.Proof.KValue
import proofs.«143895_j43920335568926_1_alg».proof.Proof.RefRun
import proofs.«143895_j43920335568926_1_alg».proof.Proof.RefValue
import proofs.«143895_j43920335568926_1_alg».proof.Proof.FrontEq
import proofs.«143895_j43920335568926_1_alg».proof.Proof.Finite

noncomputable section

namespace Cert.Proof

open Idealize.ShloMosaic Idealize.ShloMosaic.TcCoe Idealize.ShloMosaic.ValueIdx Idealize.SL.Sem
open Cert.Gcn

/-- The residual of the launch memory is real: the inputs are real by the precondition, the aggregate and the
    in-degrees by what they are made of. -/
theorem Hm_real (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (r : Fin 100000) (k : Fin 128) : IsReal (KerSide.Hm m c r k) := by
  obtain ⟨hx, hW, hb, -, -⟩ := Finite.inputs_real _ _ _ _ _ _ hpre
  exact resid_isReal _ _ _ _ _ (fun r k => hx _) (fun r k => KerSide.aggK_real _ _ hx _) (fun r => KerSide.degK_real _ r)
    (fun j k => hW _) (fun k => hb _) r k

/-- From contents that agree on the first four arguments the two programs form the same residual: the degree counts and
    the sum along the edges are the same operations on both sides. -/
theorem H_eq (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h0 : V (Cert.ReferenceIdeal.main_arg0 : DevRef Cert.ReferenceIdeal.τ Cert.ReferenceIdeal.sig) = m ((c.tc : Thread Cert.KernelIdeal.nD Cert.KernelIdeal.τ).loc Cert.KernelIdeal.main_arg0))
    (h1 : V (Cert.ReferenceIdeal.main_arg1 : DevRef Cert.ReferenceIdeal.τ Cert.ReferenceIdeal.sig) = m ((c.tc : Thread Cert.KernelIdeal.nD Cert.KernelIdeal.τ).loc Cert.KernelIdeal.main_arg1))
    (h2 : V (Cert.ReferenceIdeal.main_arg2 : DevRef Cert.ReferenceIdeal.τ Cert.ReferenceIdeal.sig) = m ((c.tc : Thread Cert.KernelIdeal.nD Cert.KernelIdeal.τ).loc Cert.KernelIdeal.main_arg2))
    (h3 : V (Cert.ReferenceIdeal.main_arg3 : DevRef Cert.ReferenceIdeal.τ Cert.ReferenceIdeal.sig) = m ((c.tc : Thread Cert.KernelIdeal.nD Cert.KernelIdeal.τ).loc Cert.KernelIdeal.main_arg3)) :
    RefSide.H V = KerSide.Hm m c := by
  unfold RefSide.H KerSide.Hm
  rw [h0, h1, h2, h3]
  simp only [FrontEq.aggR_eq, FrontEq.degR_eq]

/-- THE VALUES AGREE, entry by entry: from contents that agree on the arguments, under the precondition, what the
    reference computes at `(r, k)` is what the kernel's result array holds there. The residual is real, so the two means
    and the two variances are equal. -/
theorem entries_agree (V : Valuation Cert.ReferenceIdeal.τ Cert.ReferenceIdeal.sig (Elt Ideal))
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h0 : V (Cert.ReferenceIdeal.main_arg0 : DevRef Cert.ReferenceIdeal.τ Cert.ReferenceIdeal.sig) = m ((c.tc : Thread Cert.KernelIdeal.nD Cert.KernelIdeal.τ).loc Cert.KernelIdeal.main_arg0))
    (h1 : V (Cert.ReferenceIdeal.main_arg1 : DevRef Cert.ReferenceIdeal.τ Cert.ReferenceIdeal.sig) = m ((c.tc : Thread Cert.KernelIdeal.nD Cert.KernelIdeal.τ).loc Cert.KernelIdeal.main_arg1))
    (h2 : V (Cert.ReferenceIdeal.main_arg2 : DevRef Cert.ReferenceIdeal.τ Cert.ReferenceIdeal.sig) = m ((c.tc : Thread Cert.KernelIdeal.nD Cert.KernelIdeal.τ).loc Cert.KernelIdeal.main_arg2))
    (h3 : V (Cert.ReferenceIdeal.main_arg3 : DevRef Cert.ReferenceIdeal.τ Cert.ReferenceIdeal.sig) = m ((c.tc : Thread Cert.KernelIdeal.nD Cert.KernelIdeal.τ).loc Cert.KernelIdeal.main_arg3))
    (h4 : V (Cert.ReferenceIdeal.main_arg4 : DevRef Cert.ReferenceIdeal.τ Cert.ReferenceIdeal.sig) = m ((c.tc : Thread Cert.KernelIdeal.nD Cert.KernelIdeal.τ).loc Cert.KernelIdeal.main_arg4))
    (h5 : V (Cert.ReferenceIdeal.main_arg5 : DevRef Cert.ReferenceIdeal.τ Cert.ReferenceIdeal.sig) = m ((c.tc : Thread Cert.KernelIdeal.nD Cert.KernelIdeal.τ).loc Cert.KernelIdeal.main_arg5))
    (r : Fin 100000) (k : Fin 128) :
    (StableHlo.after Cert.ReferenceIdeal.HandRun.ops V (Cert.ReferenceIdeal.main_v57 : DevRef Cert.ReferenceIdeal.τ Cert.ReferenceIdeal.sig) : Cert.ReferenceIdeal.S100000x128.Idx → EReal) (ix2 r k)
      = (Cert.KernelIdeal.Gen.W4 (F := Ideal) m ρ c (Proc.devRef .tc Cert.KernelIdeal.main_v44) : Cert.KernelIdeal.S100000x128.Idx → EReal) (ix2 r k) := by
  rw [RefSide.result_apply V r k, KerSide.result_apply m ρ c r k, H_eq V m c h0 h1 h2 h3, h4, h5,
    meanOf_eq_meanAll (KerSide.Hm m c) _ (fun _ => rfl),
    varOfSums_eq_varAll (KerSide.Hm m c) (Hm_real m c hpre) _ _ (fun _ => rfl) (fun _ => rfl)]

theorem frame_k : Cert.frame_Kernel := fun m ρ _ => Cert.Kernel.Gen.frame m ρ
theorem frame_ki : Cert.frame_KernelIdeal := fun m ρ _ => Cert.KernelIdeal.Gen.frame m ρ

/-- The reference's frame: its run, the result forgotten; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.arg0_eq _),
     (h c Cert.ReferenceIdeal.main_arg1).trans (Cert.ReferenceIdeal.HandRun.arg1_eq _),
     (h c Cert.ReferenceIdeal.main_arg2).trans (Cert.ReferenceIdeal.HandRun.arg2_eq _),
     (h c Cert.ReferenceIdeal.main_arg3).trans (Cert.ReferenceIdeal.HandRun.arg3_eq _),
     (h c Cert.ReferenceIdeal.main_arg4).trans (Cert.ReferenceIdeal.HandRun.arg4_eq _),
     (h c Cert.ReferenceIdeal.main_arg5).trans (Cert.ReferenceIdeal.HandRun.arg5_eq _)⟩)
    (Cert.ReferenceIdeal.HandRun.run_main (F := Ideal) m ρ)

/-- Both idealised programs run, from memories agreeing on the arguments, to equal results. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v44),
    Cert.KernelIdeal.ResultRun.run (F := Ideal) m ρ, ?_⟩
  refine (θ_run Cert.ReferenceIdeal.defs _ _).mono (fun r h c =>
    ⟨(h c Cert.ReferenceIdeal.main_v57).trans ?_,
     (h c Cert.ReferenceIdeal.main_arg0).trans (Cert.ReferenceIdeal.HandRun.arg0_eq _),
     (h c Cert.ReferenceIdeal.main_arg1).trans (Cert.ReferenceIdeal.HandRun.arg1_eq _),
     (h c Cert.ReferenceIdeal.main_arg2).trans (Cert.ReferenceIdeal.HandRun.arg2_eq _),
     (h c Cert.ReferenceIdeal.main_arg3).trans (Cert.ReferenceIdeal.HandRun.arg3_eq _),
     (h c Cert.ReferenceIdeal.main_arg4).trans (Cert.ReferenceIdeal.HandRun.arg4_eq _),
     (h c Cert.ReferenceIdeal.main_arg5).trans (Cert.ReferenceIdeal.HandRun.arg5_eq _)⟩)
    (Cert.ReferenceIdeal.HandRun.run_main (F := Ideal) m' ρ')
  obtain ⟨h0, h1, h2, h3, h4, h5⟩ := hagree c
  funext i
  obtain ⟨p, q, rfl⟩ : ∃ (p : Fin 100000) (q : Fin 128), i = ix2 p q := ⟨i 0, i 1, eq_ix2 i⟩
  exact entries_agree (StableHlo.launchContents m' c) m ρ c (hpre c) h0 h1 h2 h3 h4 h5 p q

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
